-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10x30x30 : Shape := ⟨4, ![4, 10, 30, 30]⟩
abbrev S_ : Shape := ⟨0, ![]⟩

class Facts : Prop where
  bcast_S_S4x10x30x30 : S_.BroadcastsInDim S4x10x30x30 (![] : Fin 0 → Fin S4x10x30x30.rank)
  reducesTo_S4x10x30x30_S_d0_1_2_3 : S4x10x30x30.ReducesTo [0, 1, 2, 3] S_
  h_S_ : 0 < S_.numel

variable [Facts]

def fn {F : FTy → Type} [FloatOps F] (main_arg0 : FVec F S4x10x30x30 .f32) : IVec S_ 1 :=
  let main_v0 : FVec F S4x10x30x30 .f32 := Host.absf main_arg0
  let main_cst : FVec F S_ .f32 := constant S_ .f32 0x7F800000#32
  let main_v1 : FVec F S4x10x30x30 .f32 := broadcastInDim S4x10x30x30 ![] bcast_S_S4x10x30x30 main_cst
  let main_v2 : IVec S4x10x30x30 1 := cmpf .olt main_v0 main_v1
  let main_c : IVec S_ 1 := constantI S_ 1 1#1
  let main_v3 : IVec S_ 1 := (fun x v => Host.reduce IntOp.andi x v reducesTo_S4x10x30x30_S_d0_1_2_3 h_S_) main_v2 main_c
  main_v3
-- ==== Kernel.lean ====
abbrev S4x10x30x30 : Shape := ⟨4, ![4, 10, 30, 30]⟩
abbrev S4x1x30x30 : Shape := ⟨4, ![4, 1, 30, 30]⟩
abbrev S_ : Shape := ⟨0, ![]⟩
abbrev S4x1x88x88 : Shape := ⟨4, ![4, 1, 88, 88]⟩
abbrev S4x9x30x30 : Shape := ⟨4, ![4, 9, 30, 30]⟩
abbrev S4x9x88x88 : Shape := ⟨4, ![4, 9, 88, 88]⟩
abbrev S4x11x88x88 : Shape := ⟨4, ![4, 11, 88, 88]⟩
abbrev S4x88x88x11 : Shape := ⟨4, ![4, 88, 88, 11]⟩
abbrev S3600x10x61x61 : Shape := ⟨4, ![3600, 10, 61, 61]⟩
abbrev S1x88x88x11 : Shape := ⟨4, ![1, 88, 88, 11]⟩
abbrev S30x10x61x61 : Shape := ⟨4, ![30, 10, 61, 61]⟩
abbrev S1x59x88x11 : Shape := ⟨4, ![1, 59, 88, 11]⟩
abbrev S59x88x11 : Shape := ⟨3, ![59, 88, 11]⟩
abbrev S59x59x11 : Shape := ⟨3, ![59, 59, 11]⟩
abbrev S59x59x10 : Shape := ⟨3, ![59, 59, 10]⟩
abbrev S10x59x59 : Shape := ⟨3, ![10, 59, 59]⟩
abbrev S1x10x59x59 : Shape := ⟨4, ![1, 10, 59, 59]⟩
abbrev S3600x10x3721 : Shape := ⟨3, ![3600, 10, 3721]⟩

abbrev nBuf : Space → Nat
  | .hbm => 19
  | .vmem => 4
  | .smem => 0
  | _ => 0

abbrev bufTy : (tb : Table) → Fin (tcTables nBuf tb) → BufTy
  | .hbm, ⟨0, _⟩ => ⟨S4x10x30x30, .f32⟩
  | .hbm, ⟨1, _⟩ => ⟨S4x1x30x30, .f32⟩
  | .hbm, ⟨2, _⟩ => ⟨S_, .f32⟩
  | .hbm, ⟨3, _⟩ => ⟨S_, .f32⟩
  | .hbm, ⟨4, _⟩ => ⟨S4x1x88x88, .f32⟩
  | .hbm, ⟨5, _⟩ => ⟨S4x9x30x30, .f32⟩
  | .hbm, ⟨6, _⟩ => ⟨S_, .f32⟩
  | .hbm, ⟨7, _⟩ => ⟨S_, .f32⟩
  | .hbm, ⟨8, _⟩ => ⟨S4x9x88x88, .f32⟩
  | .hbm, ⟨9, _⟩ => ⟨S4x1x30x30, .f32⟩
  | .hbm, ⟨10, _⟩ => ⟨S_, .f32⟩
  | .hbm, ⟨11, _⟩ => ⟨S4x1x30x30, .f32⟩
  | .hbm, ⟨12, _⟩ => ⟨S_, .f32⟩
  | .hbm, ⟨13, _⟩ => ⟨S_, .f32⟩
  | .hbm, ⟨14, _⟩ => ⟨S4x1x88x88, .f32⟩
  | .hbm, ⟨15, _⟩ => ⟨S4x11x88x88, .f32⟩
  | .hbm, ⟨16, _⟩ => ⟨S4x88x88x11, .f32⟩
  | .hbm, ⟨17, _⟩ => ⟨S3600x10x61x61, .f32⟩
  | .hbm, ⟨18, _⟩ => ⟨S3600x10x3721, .f32⟩
  | .local _ .vmem, ⟨0, _⟩ => ⟨S1x88x88x11, .f32⟩
  | .local _ .vmem, ⟨1, _⟩ => ⟨S1x88x88x11, .f32⟩
  | .local _ .vmem, ⟨2, _⟩ => ⟨S30x10x61x61, .f32⟩
  | .local _ .vmem, ⟨3, _⟩ => ⟨S30x10x61x61, .f32⟩
  | _, _ => ⟨S4x10x30x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call1_v0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_call2_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 30], ![false, false]⟩

def k0_off1 (i : grid0.Coords) : Fin 4 → Nat :=
  let c0 : Index := 0#32
  let arg1 : BitVec 32 := BitVec.ofNat 32 (i 1).val
  let v0 : Index := Scalar.indexCast arg1
  let c0_0 : Index := 0#32
  let c0_1 : Index := 0#32
  ![0, v0.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c30_i32 : BitVec 32 := 30#32
  let v0 : BitVec 32 := Scalar.muli arg0 c30_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x88x88x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S30x10x61x61 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  slices_S4x10x30x30_S4x1x30x30_0_0_0_0 : S4x10x30x30.Slices ![0, 0, 0, 0] S4x1x30x30
  pads_S4x1x30x30_S4x1x88x88_000_000_29290_29290 : S4x1x30x30.Pads (![0, 0, 29, 29] : Fin 4 → Nat) ![0, 0, 29, 29] ![0, 0, 0, 0] S4x1x88x88
  h_S_ : 0 < S_.numel
  slices_S4x10x30x30_S4x9x30x30_0_1_0_0 : S4x10x30x30.Slices ![0, 1, 0, 0] S4x9x30x30
  pads_S4x9x30x30_S4x9x88x88_000_000_29290_29290 : S4x9x30x30.Pads (![0, 0, 29, 29] : Fin 4 → Nat) ![0, 0, 29, 29] ![0, 0, 0, 0] S4x9x88x88
  bcast_S_S4x1x30x30 : S_.BroadcastsInDim S4x1x30x30 (![] : Fin 0 → Fin S4x1x30x30.rank)
  concatenates_S4x1x88x88_S4x9x88x88_S4x1x88x88_S4x11x88x88_d1 : Shape.Concatenates [S4x1x88x88, S4x9x88x88, S4x1x88x88] S4x11x88x88 1
  transposes_S4x11x88x88_S4x88x88x11_0_2_3_1 : S4x11x88x88.Transposes [0, 2, 3, 1] S4x88x88x11
  h_S1x59x88x11 : 0 < S1x59x88x11.numel
  shapeCasts_S1x59x88x11_S59x88x11 : S1x59x88x11.ShapeCasts S59x88x11
  inb_S30x10x61x61_S30x10x61x61_0_0_0_0 : ∀ a, (![0, 0, 0, 0] : Fin 4 → Nat) a + S30x10x61x61.size a ≤ S30x10x61x61.size a
  h_S30x10x61x61 : 0 < S30x10x61x61.numel
  slices_S59x88x11_o0_0_0_S59x59x11 : S59x88x11.Slices ![0, 0, 0] S59x59x11
  slices_S59x59x11_o0_0_0_S59x59x10 : S59x59x11.Slices ![0, 0, 0] S59x59x10
  transposes_S59x59x10_p2_0_1_S10x59x59 : S59x59x10.Transposes [2, 0, 1] S10x59x59
  inb_S30x10x61x61_S1x10x59x59_0_0_0_0 : ∀ a, (![0, 0, 0, 0] : Fin 4 → Nat) a + S1x10x59x59.size a ≤ S30x10x61x61.size a
  h_S1x10x59x59 : 0 < S1x10x59x59.numel
  shapeCasts_S1x10x59x59_S10x59x59 : S1x10x59x59.ShapeCasts S10x59x59
  shapeCasts_S10x59x59_S1x10x59x59 : S10x59x59.ShapeCasts S1x10x59x59
  slices_S59x88x11_o0_1_0_S59x59x11 : S59x88x11.Slices ![0, 1, 0] S59x59x11
  inb_S30x10x61x61_S1x10x59x59_1_0_0_0 : ∀ a, (![1, 0, 0, 0] : Fin 4 → Nat) a + S1x10x59x59.size a ≤ S30x10x61x61.size a
  slices_S59x88x11_o0_2_0_S59x59x11 : S59x88x11.Slices ![0, 2, 0] S59x59x11
  inb_S30x10x61x61_S1x10x59x59_2_0_0_0 : ∀ a, (![2, 0, 0, 0] : Fin 4 → Nat) a + S1x10x59x59.size a ≤ S30x10x61x61.size a
  slices_S59x88x11_o0_3_0_S59x59x11 : S59x88x11.Slices ![0, 3, 0] S59x59x11
  inb_S30x10x61x61_S1x10x59x59_3_0_0_0 : ∀ a, (![3, 0, 0, 0] : Fin 4 → Nat) a + S1x10x59x59.size a ≤ S30x10x61x61.size a
  slices_S59x88x11_o0_4_0_S59x59x11 : S59x88x11.Slices ![0, 4, 0] S59x59x11
  inb_S30x10x61x61_S1x10x59x59_4_0_0_0 : ∀ a, (![4, 0, 0, 0] : Fin 4 → Nat) a + S1x10x59x59.size a ≤ S30x10x61x61.size a
  slices_S59x88x11_o0_5_0_S59x59x11 : S59x88x11.Slices ![0, 5, 0] S59x59x11
  inb_S30x10x61x61_S1x10x59x59_5_0_0_0 : ∀ a, (![5, 0, 0, 0] : Fin 4 → Nat) a + S1x10x59x59.size a ≤ S30x10x61x61.size a
  slices_S59x88x11_o0_6_0_S59x59x11 : S59x88x11.Slices ![0, 6, 0] S59x59x11
  inb_S30x10x61x61_S1x10x59x59_6_0_0_0 : ∀ a, (![6, 0, 0, 0] : Fin 4 → Nat) a + S1x10x59x59.size a ≤ S30x10x61x61.size a
  slices_S59x88x11_o0_7_0_S59x59x11 : S59x88x11.Slices ![0, 7, 0] S59x59x11
  inb_S30x10x61x61_S1x10x59x59_7_0_0_0 : ∀ a, (![7, 0, 0, 0] : Fin 4 → Nat) a + S1x10x59x59.size a ≤ S30x10x61x61.size a
  slices_S59x88x11_o0_8_0_S59x59x11 : S59x88x11.Slices ![0, 8, 0] S59x59x11
  inb_S30x10x61x61_S1x10x59x59_8_0_0_0 : ∀ a, (![8, 0, 0, 0] : Fin 4 → Nat) a + S1x10x59x59.size a ≤ S30x10x61x61.size a
  slices_S59x88x11_o0_9_0_S59x59x11 : S59x88x11.Slices ![0, 9, 0] S59x59x11
  inb_S30x10x61x61_S1x10x59x59_9_0_0_0 : ∀ a, (![9, 0, 0, 0] : Fin 4 → Nat) a + S1x10x59x59.size a ≤ S30x10x61x61.size a
  slices_S59x88x11_o0_10_0_S59x59x11 : S59x88x11.Slices ![0, 10, 0] S59x59x11
  inb_S30x10x61x61_S1x10x59x59_10_0_0_0 : ∀ a, (![10, 0, 0, 0] : Fin 4 → Nat) a + S1x10x59x59.size a ≤ S30x10x61x61.size a
  slices_S59x88x11_o0_11_0_S59x59x11 : S59x88x11.Slices ![0, 11, 0] S59x59x11
  inb_S30x10x61x61_S1x10x59x59_11_0_0_0 : ∀ a, (![11, 0, 0, 0] : Fin 4 → Nat) a + S1x10x59x59.size a ≤ S30x10x61x61.size a
  slices_S59x88x11_o0_12_0_S59x59x11 : S59x88x11.Slices ![0, 12, 0] S59x59x11
  inb_S30x10x61x61_S1x10x59x59_12_0_0_0 : ∀ a, (![12, 0, 0, 0] : Fin 4 → Nat) a + S1x10x59x59.size a ≤ S30x10x61x61.size a
  slices_S59x88x11_o0_13_0_S59x59x11 : S59x88x11.Slices ![0, 13, 0] S59x59x11
  inb_S30x10x61x61_S1x10x59x59_13_0_0_0 : ∀ a, (![13, 0, 0, 0] : Fin 4 → Nat) a + S1x10x59x59.size a ≤ S30x10x61x61.size a
  slices_S59x88x11_o0_14_0_S59x59x11 : S59x88x11.Slices ![0, 14, 0] S59x59x11
  inb_S30x10x61x61_S1x10x59x59_14_0_0_0 : ∀ a, (![14, 0, 0, 0] : Fin 4 → Nat) a + S1x10x59x59.size a ≤ S30x10x61x61.size a
  slices_S59x88x11_o0_15_0_S59x59x11 : S59x88x11.Slices ![0, 15, 0] S59x59x11
  inb_S30x10x61x61_S1x10x59x59_15_0_0_0 : ∀ a, (![15, 0, 0, 0] : Fin 4 → Nat) a + S1x10x59x59.size a ≤ S30x10x61x61.size a
  slices_S59x88x11_o0_16_0_S59x59x11 : S59x88x11.Slices ![0, 16, 0] S59x59x11
  inb_S30x10x61x61_S1x10x59x59_16_0_0_0 : ∀ a, (![16, 0, 0, 0] : Fin 4 → Nat) a + S1x10x59x59.size a ≤ S30x10x61x61.size a
  slices_S59x88x11_o0_17_0_S59x59x11 : S59x88x11.Slices ![0, 17, 0] S59x59x11
  inb_S30x10x61x61_S1x10x59x59_17_0_0_0 : ∀ a, (![17, 0, 0, 0] : Fin 4 → Nat) a + S1x10x59x59.size a ≤ S30x10x61x61.size a
  slices_S59x88x11_o0_18_0_S59x59x11 : S59x88x11.Slices ![0, 18, 0] S59x59x11
  inb_S30x10x61x61_S1x10x59x59_18_0_0_0 : ∀ a, (![18, 0, 0, 0] : Fin 4 → Nat) a + S1x10x59x59.size a ≤ S30x10x61x61.size a
  slices_S59x88x11_o0_19_0_S59x59x11 : S59x88x11.Slices ![0, 19, 0] S59x59x11
  inb_S30x10x61x61_S1x10x59x59_19_0_0_0 : ∀ a, (![19, 0, 0, 0] : Fin 4 → Nat) a + S1x10x59x59.size a ≤ S30x10x61x61.size a
  slices_S59x88x11_o0_20_0_S59x59x11 : S59x88x11.Slices ![0, 20, 0] S59x59x11
  inb_S30x10x61x61_S1x10x59x59_20_0_0_0 : ∀ a, (![20, 0, 0, 0] : Fin 4 → Nat) a + S1x10x59x59.size a ≤ S30x10x61x61.size a
  slices_S59x88x11_o0_21_0_S59x59x11 : S59x88x11.Slices ![0, 21, 0] S59x59x11
  inb_S30x10x61x61_S1x10x59x59_21_0_0_0 : ∀ a, (![21, 0, 0, 0] : Fin 4 → Nat) a + S1x10x59x59.size a ≤ S30x10x61x61.size a
  slices_S59x88x11_o0_22_0_S59x59x11 : S59x88x11.Slices ![0, 22, 0] S59x59x11
  inb_S30x10x61x61_S1x10x59x59_22_0_0_0 : ∀ a, (![22, 0, 0, 0] : Fin 4 → Nat) a + S1x10x59x59.size a ≤ S30x10x61x61.size a
  slices_S59x88x11_o0_23_0_S59x59x11 : S59x88x11.Slices ![0, 23, 0] S59x59x11
  inb_S30x10x61x61_S1x10x59x59_23_0_0_0 : ∀ a, (![23, 0, 0, 0] : Fin 4 → Nat) a + S1x10x59x59.size a ≤ S30x10x61x61.size a
  slices_S59x88x11_o0_24_0_S59x59x11 : S59x88x11.Slices ![0, 24, 0] S59x59x11
  inb_S30x10x61x61_S1x10x59x59_24_0_0_0 : ∀ a, (![24, 0, 0, 0] : Fin 4 → Nat) a + S1x10x59x59.size a ≤ S30x10x61x61.size a
  slices_S59x88x11_o0_25_0_S59x59x11 : S59x88x11.Slices ![0, 25, 0] S59x59x11
  inb_S30x10x61x61_S1x10x59x59_25_0_0_0 : ∀ a, (![25, 0, 0, 0] : Fin 4 → Nat) a + S1x10x59x59.size a ≤ S30x10x61x61.size a
  slices_S59x88x11_o0_26_0_S59x59x11 : S59x88x11.Slices ![0, 26, 0] S59x59x11
  inb_S30x10x61x61_S1x10x59x59_26_0_0_0 : ∀ a, (![26, 0, 0, 0] : Fin 4 → Nat) a + S1x10x59x59.size a ≤ S30x10x61x61.size a
  slices_S59x88x11_o0_27_0_S59x59x11 : S59x88x11.Slices ![0, 27, 0] S59x59x11
  inb_S30x10x61x61_S1x10x59x59_27_0_0_0 : ∀ a, (![27, 0, 0, 0] : Fin 4 → Nat) a + S1x10x59x59.size a ≤ S30x10x61x61.size a
  slices_S59x88x11_o0_28_0_S59x59x11 : S59x88x11.Slices ![0, 28, 0] S59x59x11
  inb_S30x10x61x61_S1x10x59x59_28_0_0_0 : ∀ a, (![28, 0, 0, 0] : Fin 4 → Nat) a + S1x10x59x59.size a ≤ S30x10x61x61.size a
  slices_S59x88x11_o0_29_0_S59x59x11 : S59x88x11.Slices ![0, 29, 0] S59x59x11
  inb_S30x10x61x61_S1x10x59x59_29_0_0_0 : ∀ a, (![29, 0, 0, 0] : Fin 4 → Nat) a + S1x10x59x59.size a ≤ S30x10x61x61.size a
  shapeCasts_S3600x10x61x61_S3600x10x3721 : S3600x10x61x61.ShapeCasts S3600x10x3721
  hrank0 : 0 < grid0.rank
  k0_off1_inb : ∀ i : grid0.Coords, ∀ a, (k0_off1 i) a + S1x59x88x11.size a ≤ S1x88x88x11.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x88x88x11.size a ≤ S4x88x88x11.size a
  hwx0_0 : ∀ i : grid0.Coords, EltTy.bits .f32 = 32 ∨ (Rect.block (s := S4x88x88x11) S1x88x88x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S30x10x61x61.size a ≤ S3600x10x61x61.size a
  hwx0_1 : ∀ i : grid0.Coords, EltTy.bits .f32 = 32 ∨ (Rect.block (s := S3600x10x61x61) S30x10x61x61.size (cc0_transform_1 i) (hinb0_1 i)).WholeWords (EltTy.packing .f32)

variable [Facts₀]

abbrev win0_0 : Pipeline.Window sig grid0 :=
  Pipeline.Window.ofSpec (Memref.whole main_v8) S1x88x88x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S30x10x61x61.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x10x30x30 : Shape := ⟨4, ![4, 10, 30, 30]⟩
abbrev S4x1x30x30 : Shape := ⟨4, ![4, 1, 30, 30]⟩
abbrev S_ : Shape := ⟨0, ![]⟩
abbrev S4x1x88x88 : Shape := ⟨4, ![4, 1, 88, 88]⟩
abbrev S4x9x30x30 : Shape := ⟨4, ![4, 9, 30, 30]⟩
abbrev S4x9x88x88 : Shape := ⟨4, ![4, 9, 88, 88]⟩
abbrev S4x11x88x88 : Shape := ⟨4, ![4, 11, 88, 88]⟩
abbrev S4x88x88x11 : Shape := ⟨4, ![4, 88, 88, 11]⟩
abbrev S30 : Shape := ⟨1, ![30]⟩
abbrev S30x1 : Shape := ⟨2, ![30, 1]⟩
abbrev S59 : Shape := ⟨1, ![59]⟩
abbrev S1x59 : Shape := ⟨2, ![1, 59]⟩
abbrev S30x59 : Shape := ⟨2, ![30, 59]⟩
abbrev S30x1x59x1 : Shape := ⟨4, ![30, 1, 59, 1]⟩
abbrev S1x30x1x59 : Shape := ⟨4, ![1, 30, 1, 59]⟩
abbrev S30x30x59x59 : Shape := ⟨4, ![30, 30, 59, 59]⟩
abbrev S30x30x59x59x1 : Shape := ⟨5, ![30, 30, 59, 59, 1]⟩
abbrev S30x30x59x59x2 : Shape := ⟨5, ![30, 30, 59, 59, 2]⟩
abbrev S4x30x30x59x59x11 : Shape := ⟨6, ![4, 30, 30, 59, 59, 11]⟩
abbrev S4x30x30x11x59x59 : Shape := ⟨6, ![4, 30, 30, 11, 59, 59]⟩
abbrev S4x30x30x11x61x61 : Shape := ⟨6, ![4, 30, 30, 11, 61, 61]⟩
abbrev S3600x11x3721 : Shape := ⟨3, ![3600, 11, 3721]⟩
abbrev S3600x10x3721 : Shape := ⟨3, ![3600, 10, 3721]⟩

abbrev nBuf : Space → Nat
  | .hbm => 59
  | .vmem => 0
  | .smem => 0
  | _ => 0

abbrev bufTy : (tb : Table) → Fin (tcTables nBuf tb) → BufTy
  | .hbm, ⟨0, _⟩ => ⟨S4x10x30x30, .f32⟩
  | .hbm, ⟨1, _⟩ => ⟨S4x1x30x30, .f32⟩
  | .hbm, ⟨2, _⟩ => ⟨S_, .f32⟩
  | .hbm, ⟨3, _⟩ => ⟨S_, .f32⟩
  | .hbm, ⟨4, _⟩ => ⟨S4x1x88x88, .f32⟩
  | .hbm, ⟨5, _⟩ => ⟨S4x9x30x30, .f32⟩
  | .hbm, ⟨6, _⟩ => ⟨S_, .f32⟩
  | .hbm, ⟨7, _⟩ => ⟨S_, .f32⟩
  | .hbm, ⟨8, _⟩ => ⟨S4x9x88x88, .f32⟩
  | .hbm, ⟨9, _⟩ => ⟨S4x1x30x30, .f32⟩
  | .hbm, ⟨10, _⟩ => ⟨S_, .f32⟩
  | .hbm, ⟨11, _⟩ => ⟨S4x1x30x30, .f32⟩
  | .hbm, ⟨12, _⟩ => ⟨S_, .f32⟩
  | .hbm, ⟨13, _⟩ => ⟨S_, .f32⟩
  | .hbm, ⟨14, _⟩ => ⟨S4x1x88x88, .f32⟩
  | .hbm, ⟨15, _⟩ => ⟨S4x11x88x88, .f32⟩
  | .hbm, ⟨16, _⟩ => ⟨S4x88x88x11, .f32⟩
  | .hbm, ⟨17, _⟩ => ⟨S30, .i32⟩
  | .hbm, ⟨18, _⟩ => ⟨S30x1, .i32⟩
  | .hbm, ⟨19, _⟩ => ⟨S59, .i32⟩
  | .hbm, ⟨20, _⟩ => ⟨S1x59, .i32⟩
  | .hbm, ⟨21, _⟩ => ⟨S30x59, .i32⟩
  | .hbm, ⟨22, _⟩ => ⟨S30x59, .i32⟩
  | .hbm, ⟨23, _⟩ => ⟨S30x59, .i32⟩
  | .hbm, ⟨24, _⟩ => ⟨S30, .i32⟩
  | .hbm, ⟨25, _⟩ => ⟨S30x1, .i32⟩
  | .hbm, ⟨26, _⟩ => ⟨S59, .i32⟩
  | .hbm, ⟨27, _⟩ => ⟨S1x59, .i32⟩
  | .hbm, ⟨28, _⟩ => ⟨S30x59, .i32⟩
  | .hbm, ⟨29, _⟩ => ⟨S30x59, .i32⟩
  | .hbm, ⟨30, _⟩ => ⟨S30x59, .i32⟩
  | .hbm, ⟨31, _⟩ => ⟨S30x1x59x1, .i32⟩
  | .hbm, ⟨32, _⟩ => ⟨S1x30x1x59, .i32⟩
  | .hbm, ⟨33, _⟩ => ⟨S_, .i32⟩
  | .hbm, ⟨34, _⟩ => ⟨S30x1x59x1, .i32⟩
  | .hbm, ⟨35, _⟩ => ⟨S30x1x59x1, .i1⟩
  | .hbm, ⟨36, _⟩ => ⟨S_, .i32⟩
  | .hbm, ⟨37, _⟩ => ⟨S30x1x59x1, .i32⟩
  | .hbm, ⟨38, _⟩ => ⟨S30x1x59x1, .i32⟩
  | .hbm, ⟨39, _⟩ => ⟨S30x1x59x1, .i32⟩
  | .hbm, ⟨40, _⟩ => ⟨S_, .i32⟩
  | .hbm, ⟨41, _⟩ => ⟨S1x30x1x59, .i32⟩
  | .hbm, ⟨42, _⟩ => ⟨S1x30x1x59, .i1⟩
  | .hbm, ⟨43, _⟩ => ⟨S_, .i32⟩
  | .hbm, ⟨44, _⟩ => ⟨S1x30x1x59, .i32⟩
  | .hbm, ⟨45, _⟩ => ⟨S1x30x1x59, .i32⟩
  | .hbm, ⟨46, _⟩ => ⟨S1x30x1x59, .i32⟩
  | .hbm, ⟨47, _⟩ => ⟨S30x30x59x59, .i32⟩
  | .hbm, ⟨48, _⟩ => ⟨S30x30x59x59, .i32⟩
  | .hbm, ⟨49, _⟩ => ⟨S30x30x59x59x1, .i32⟩
  | .hbm, ⟨50, _⟩ => ⟨S30x30x59x59x1, .i32⟩
  | .hbm, ⟨51, _⟩ => ⟨S30x30x59x59x2, .i32⟩
  | .hbm, ⟨52, _⟩ => ⟨S4x30x30x59x59x11, .f32⟩
  | .hbm, ⟨53, _⟩ => ⟨S4x30x30x11x59x59, .f32⟩
  | .hbm, ⟨54, _⟩ => ⟨S_, .i32⟩
  | .hbm, ⟨55, _⟩ => ⟨S_, .f32⟩
  | .hbm, ⟨56, _⟩ => ⟨S4x30x30x11x61x61, .f32⟩
  | .hbm, ⟨57, _⟩ => ⟨S3600x11x3721, .f32⟩
  | .hbm, ⟨58, _⟩ => ⟨S3600x10x3721, .f32⟩
  | _, _ => ⟨S4x10x30x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call1_v0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_call2_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_call3_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  slices_S4x10x30x30_S4x1x30x30_0_0_0_0 : S4x10x30x30.Slices ![0, 0, 0, 0] S4x1x30x30
  pads_S4x1x30x30_S4x1x88x88_000_000_29290_29290 : S4x1x30x30.Pads (![0, 0, 29, 29] : Fin 4 → Nat) ![0, 0, 29, 29] ![0, 0, 0, 0] S4x1x88x88
  h_S_ : 0 < S_.numel
  slices_S4x10x30x30_S4x9x30x30_0_1_0_0 : S4x10x30x30.Slices ![0, 1, 0, 0] S4x9x30x30
  pads_S4x9x30x30_S4x9x88x88_000_000_29290_29290 : S4x9x30x30.Pads (![0, 0, 29, 29] : Fin 4 → Nat) ![0, 0, 29, 29] ![0, 0, 0, 0] S4x9x88x88
  bcast_S_S4x1x30x30 : S_.BroadcastsInDim S4x1x30x30 (![] : Fin 0 → Fin S4x1x30x30.rank)
  concatenates_S4x1x88x88_S4x9x88x88_S4x1x88x88_S4x11x88x88_d1 : Shape.Concatenates [S4x1x88x88, S4x9x88x88, S4x1x88x88] S4x11x88x88 1
  transposes_S4x11x88x88_S4x88x88x11_0_2_3_1 : S4x11x88x88.Transposes [0, 2, 3, 1] S4x88x88x11
  bcast_S30_S30x1_0 : S30.BroadcastsInDim S30x1 (![0] : Fin 1 → Fin S30x1.rank)
  bcast_S59_S1x59_1 : S59.BroadcastsInDim S1x59 (![1] : Fin 1 → Fin S1x59.rank)
  bcast_S30x1_S30x59_0_1 : S30x1.BroadcastsInDim S30x59 (![0, 1] : Fin 2 → Fin S30x59.rank)
  bcast_S1x59_S30x59_0_1 : S1x59.BroadcastsInDim S30x59 (![0, 1] : Fin 2 → Fin S30x59.rank)
  bcast_S30x59_S30x1x59x1_0_2 : S30x59.BroadcastsInDim S30x1x59x1 (![0, 2] : Fin 2 → Fin S30x1x59x1.rank)
  bcast_S30x59_S1x30x1x59_1_3 : S30x59.BroadcastsInDim S1x30x1x59 (![1, 3] : Fin 2 → Fin S1x30x1x59.rank)
  bcast_S_S30x1x59x1 : S_.BroadcastsInDim S30x1x59x1 (![] : Fin 0 → Fin S30x1x59x1.rank)
  bcast_S_S1x30x1x59 : S_.BroadcastsInDim S1x30x1x59 (![] : Fin 0 → Fin S1x30x1x59.rank)
  bcast_S30x1x59x1_S30x30x59x59_0_1_2_3 : S30x1x59x1.BroadcastsInDim S30x30x59x59 (![0, 1, 2, 3] : Fin 4 → Fin S30x30x59x59.rank)
  bcast_S1x30x1x59_S30x30x59x59_0_1_2_3 : S1x30x1x59.BroadcastsInDim S30x30x59x59 (![0, 1, 2, 3] : Fin 4 → Fin S30x30x59x59.rank)
  bcast_S30x30x59x59_S30x30x59x59x1_0_1_2_3 : S30x30x59x59.BroadcastsInDim S30x30x59x59x1 (![0, 1, 2, 3] : Fin 4 → Fin S30x30x59x59x1.rank)
  concatenates_S30x30x59x59x1_S30x30x59x59x1_S30x30x59x59x2_d4 : Shape.Concatenates [S30x30x59x59x1, S30x30x59x59x1] S30x30x59x59x2 4
  transposes_S4x30x30x59x59x11_S4x30x30x11x59x59_0_1_2_5_3_4 : S4x30x30x59x59x11.Transposes [0, 1, 2, 5, 3, 4] S4x30x30x11x59x59
  pads_S4x30x30x11x59x59_S4x30x30x11x61x61_000_000_000_000_020_020 : S4x30x30x11x59x59.Pads (![0, 0, 0, 0, 0, 0] : Fin 6 → Nat) ![0, 0, 0, 0, 2, 2] ![0, 0, 0, 0, 0, 0] S4x30x30x11x61x61
  shapeCasts_S4x30x30x11x61x61_S3600x11x3721 : S4x30x30x11x61x61.ShapeCasts S3600x11x3721
  slices_S3600x11x3721_S3600x10x3721_0_0_0 : S3600x11x3721.Slices ![0, 0, 0] S3600x10x3721
  gather_S4x88x88x11_S30x30x59x59x2_S4x30x30x59x59x11_05_12_n_n_12_4_41111_wf : GatherDims.WF S4x88x88x11 S30x30x59x59x2 S4x30x30x59x59x11 [0, 5] [1, 2] [] [1, 2] [] 4 ![4, 1, 1, 11]

variable [Facts₀]

def gather_S4x88x88x11_S30x30x59x59x2_S4x30x30x59x59x11_05_12_n_n_12_4_41111 : GatherDims S4x88x88x11 S30x30x59x59x2 S4x30x30x59x59x11 where
  offsetDims := [0, 5]
  collapsedSliceDims := [1, 2]
  operandBatchingDims := []
  startIndicesBatchingDims := []
  startIndexMap := [1, 2]
  indexVectorDim := 4
  sliceSizes := ![4, 1, 1, 11]
  wf := gather_S4x88x88x11_S30x30x59x59x2_S4x30x30x59x59x11_05_12_n_n_12_4_41111_wf

class Facts : Prop extends Facts₀ where

variable [Facts]
-- ==== Proof.KernelMain.lean ====
/-
  The kernel's @main around its one region.

  @main is seven stretches of host operations (three slices of the argument, each padded to 88 × 88, joined along the
  channel axis and transposed to channels-last), the region, and one reshape of the region's result. The contents the
  region finds are the host stretches folded over the launch memory; no stretch writes the argument, and the reshape
  after the region writes neither the argument nor an array the region stages.
-/
import proofs.«147410_j25297357373688_1_alg».proof.Proof.Gen.Kernel.Launch
import proofs.«147410_j25297357373688_1_alg».proof.Proof.Gen.Kernel.Skeleton
import proofs.«147410_j25297357373688_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the seven host stretches folded over the launch memory. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- The reshape after the region touches only arrays of the pipeline and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, StableHlo.reshape_writes,
      StableHlo.TRef.unary, StableHlo.TRef.binary, Finset.mem_singleton]
    repeat' apply And.intro
    all_goals exact StableHlo.devRef_ne_of_ne (by decide)))

/-- Nor does the reshape after it: the argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not (the window is
    fetched only when the batch coordinate moves; in between the block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post, read at the argument (which no window stages and no host operation writes),
    is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

end Cert.Kernel.Hand

end
-- ==== Proof.KernelTable.lean ====
/- The output buffer's thirty patch rectangles, and the thirty patch stores as pieces, latest first: store j
   writes, at patch j's 10 x 59 x 59 corner, the skeleton's payload for window column j. Definitions only. -/
import proofs.«147410_j25297357373688_1_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe

variable {F : FTy → Type} [FloatOps F]

/-- Patch 0's 10 × 59 × 59 corner. -/
abbrev rS0 : Rect S30x10x61x61 := Rect.unit (s := S30x10x61x61) ![0, 0, 0, 0] S1x10x59x59.size inb_S30x10x61x61_S1x10x59x59_0_0_0_0
/-- Patch 1's 10 × 59 × 59 corner. -/
abbrev rS1 : Rect S30x10x61x61 := Rect.unit (s := S30x10x61x61) ![1, 0, 0, 0] S1x10x59x59.size inb_S30x10x61x61_S1x10x59x59_1_0_0_0
/-- Patch 2's 10 × 59 × 59 corner. -/
abbrev rS2 : Rect S30x10x61x61 := Rect.unit (s := S30x10x61x61) ![2, 0, 0, 0] S1x10x59x59.size inb_S30x10x61x61_S1x10x59x59_2_0_0_0
/-- Patch 3's 10 × 59 × 59 corner. -/
abbrev rS3 : Rect S30x10x61x61 := Rect.unit (s := S30x10x61x61) ![3, 0, 0, 0] S1x10x59x59.size inb_S30x10x61x61_S1x10x59x59_3_0_0_0
/-- Patch 4's 10 × 59 × 59 corner. -/
abbrev rS4 : Rect S30x10x61x61 := Rect.unit (s := S30x10x61x61) ![4, 0, 0, 0] S1x10x59x59.size inb_S30x10x61x61_S1x10x59x59_4_0_0_0
/-- Patch 5's 10 × 59 × 59 corner. -/
abbrev rS5 : Rect S30x10x61x61 := Rect.unit (s := S30x10x61x61) ![5, 0, 0, 0] S1x10x59x59.size inb_S30x10x61x61_S1x10x59x59_5_0_0_0
/-- Patch 6's 10 × 59 × 59 corner. -/
abbrev rS6 : Rect S30x10x61x61 := Rect.unit (s := S30x10x61x61) ![6, 0, 0, 0] S1x10x59x59.size inb_S30x10x61x61_S1x10x59x59_6_0_0_0
/-- Patch 7's 10 × 59 × 59 corner. -/
abbrev rS7 : Rect S30x10x61x61 := Rect.unit (s := S30x10x61x61) ![7, 0, 0, 0] S1x10x59x59.size inb_S30x10x61x61_S1x10x59x59_7_0_0_0
/-- Patch 8's 10 × 59 × 59 corner. -/
abbrev rS8 : Rect S30x10x61x61 := Rect.unit (s := S30x10x61x61) ![8, 0, 0, 0] S1x10x59x59.size inb_S30x10x61x61_S1x10x59x59_8_0_0_0
/-- Patch 9's 10 × 59 × 59 corner. -/
abbrev rS9 : Rect S30x10x61x61 := Rect.unit (s := S30x10x61x61) ![9, 0, 0, 0] S1x10x59x59.size inb_S30x10x61x61_S1x10x59x59_9_0_0_0
/-- Patch 10's 10 × 59 × 59 corner. -/
abbrev rS10 : Rect S30x10x61x61 := Rect.unit (s := S30x10x61x61) ![10, 0, 0, 0] S1x10x59x59.size inb_S30x10x61x61_S1x10x59x59_10_0_0_0
/-- Patch 11's 10 × 59 × 59 corner. -/
abbrev rS11 : Rect S30x10x61x61 := Rect.unit (s := S30x10x61x61) ![11, 0, 0, 0] S1x10x59x59.size inb_S30x10x61x61_S1x10x59x59_11_0_0_0
/-- Patch 12's 10 × 59 × 59 corner. -/
abbrev rS12 : Rect S30x10x61x61 := Rect.unit (s := S30x10x61x61) ![12, 0, 0, 0] S1x10x59x59.size inb_S30x10x61x61_S1x10x59x59_12_0_0_0
/-- Patch 13's 10 × 59 × 59 corner. -/
abbrev rS13 : Rect S30x10x61x61 := Rect.unit (s := S30x10x61x61) ![13, 0, 0, 0] S1x10x59x59.size inb_S30x10x61x61_S1x10x59x59_13_0_0_0
/-- Patch 14's 10 × 59 × 59 corner. -/
abbrev rS14 : Rect S30x10x61x61 := Rect.unit (s := S30x10x61x61) ![14, 0, 0, 0] S1x10x59x59.size inb_S30x10x61x61_S1x10x59x59_14_0_0_0
/-- Patch 15's 10 × 59 × 59 corner. -/
abbrev rS15 : Rect S30x10x61x61 := Rect.unit (s := S30x10x61x61) ![15, 0, 0, 0] S1x10x59x59.size inb_S30x10x61x61_S1x10x59x59_15_0_0_0
/-- Patch 16's 10 × 59 × 59 corner. -/
abbrev rS16 : Rect S30x10x61x61 := Rect.unit (s := S30x10x61x61) ![16, 0, 0, 0] S1x10x59x59.size inb_S30x10x61x61_S1x10x59x59_16_0_0_0
/-- Patch 17's 10 × 59 × 59 corner. -/
abbrev rS17 : Rect S30x10x61x61 := Rect.unit (s := S30x10x61x61) ![17, 0, 0, 0] S1x10x59x59.size inb_S30x10x61x61_S1x10x59x59_17_0_0_0
/-- Patch 18's 10 × 59 × 59 corner. -/
abbrev rS18 : Rect S30x10x61x61 := Rect.unit (s := S30x10x61x61) ![18, 0, 0, 0] S1x10x59x59.size inb_S30x10x61x61_S1x10x59x59_18_0_0_0
/-- Patch 19's 10 × 59 × 59 corner. -/
abbrev rS19 : Rect S30x10x61x61 := Rect.unit (s := S30x10x61x61) ![19, 0, 0, 0] S1x10x59x59.size inb_S30x10x61x61_S1x10x59x59_19_0_0_0
/-- Patch 20's 10 × 59 × 59 corner. -/
abbrev rS20 : Rect S30x10x61x61 := Rect.unit (s := S30x10x61x61) ![20, 0, 0, 0] S1x10x59x59.size inb_S30x10x61x61_S1x10x59x59_20_0_0_0
/-- Patch 21's 10 × 59 × 59 corner. -/
abbrev rS21 : Rect S30x10x61x61 := Rect.unit (s := S30x10x61x61) ![21, 0, 0, 0] S1x10x59x59.size inb_S30x10x61x61_S1x10x59x59_21_0_0_0
/-- Patch 22's 10 × 59 × 59 corner. -/
abbrev rS22 : Rect S30x10x61x61 := Rect.unit (s := S30x10x61x61) ![22, 0, 0, 0] S1x10x59x59.size inb_S30x10x61x61_S1x10x59x59_22_0_0_0
/-- Patch 23's 10 × 59 × 59 corner. -/
abbrev rS23 : Rect S30x10x61x61 := Rect.unit (s := S30x10x61x61) ![23, 0, 0, 0] S1x10x59x59.size inb_S30x10x61x61_S1x10x59x59_23_0_0_0
/-- Patch 24's 10 × 59 × 59 corner. -/
abbrev rS24 : Rect S30x10x61x61 := Rect.unit (s := S30x10x61x61) ![24, 0, 0, 0] S1x10x59x59.size inb_S30x10x61x61_S1x10x59x59_24_0_0_0
/-- Patch 25's 10 × 59 × 59 corner. -/
abbrev rS25 : Rect S30x10x61x61 := Rect.unit (s := S30x10x61x61) ![25, 0, 0, 0] S1x10x59x59.size inb_S30x10x61x61_S1x10x59x59_25_0_0_0
/-- Patch 26's 10 × 59 × 59 corner. -/
abbrev rS26 : Rect S30x10x61x61 := Rect.unit (s := S30x10x61x61) ![26, 0, 0, 0] S1x10x59x59.size inb_S30x10x61x61_S1x10x59x59_26_0_0_0
/-- Patch 27's 10 × 59 × 59 corner. -/
abbrev rS27 : Rect S30x10x61x61 := Rect.unit (s := S30x10x61x61) ![27, 0, 0, 0] S1x10x59x59.size inb_S30x10x61x61_S1x10x59x59_27_0_0_0
/-- Patch 28's 10 × 59 × 59 corner. -/
abbrev rS28 : Rect S30x10x61x61 := Rect.unit (s := S30x10x61x61) ![28, 0, 0, 0] S1x10x59x59.size inb_S30x10x61x61_S1x10x59x59_28_0_0_0
/-- Patch 29's 10 × 59 × 59 corner. -/
abbrev rS29 : Rect S30x10x61x61 := Rect.unit (s := S30x10x61x61) ![29, 0, 0, 0] S1x10x59x59.size inb_S30x10x61x61_S1x10x59x59_29_0_0_0

/-- The thirty patch stores, latest first, as pieces over the loaded band `v1` (its leading unit axis dropped: `v2`). -/
def slabs (v1 : Vec F S1x59x88x11 .f32) : List (View.Piece (Elt F) S30x10x61x61 .f32) :=
  let v2 : FVec F S59x88x11 .f32 := k0_pay6 v1
  [⟨rS29, k0_pay5 v2⟩,
   ⟨rS28, k0_pay4 v2⟩,
   ⟨rS27, k0_pay3 v2⟩,
   ⟨rS26, k0_pay2 v2⟩,
   ⟨rS25, k0_pay1 (k0_pay35 v2)⟩,
   ⟨rS24, k0_pay34 v2⟩,
   ⟨rS23, k0_pay33 v2⟩,
   ⟨rS22, k0_pay32 v2⟩,
   ⟨rS21, k0_pay31 v2⟩,
   ⟨rS20, k0_pay30 (k0_pay29 v2)⟩,
   ⟨rS19, k0_pay28 v2⟩,
   ⟨rS18, k0_pay27 v2⟩,
   ⟨rS17, k0_pay26 v2⟩,
   ⟨rS16, k0_pay25 v2⟩,
   ⟨rS15, k0_pay24 v2⟩,
   ⟨rS14, k0_pay23 v2⟩,
   ⟨rS13, k0_pay22 v2⟩,
   ⟨rS12, k0_pay21 v2⟩,
   ⟨rS11, k0_pay20 v2⟩,
   ⟨rS10, k0_pay19 v2⟩,
   ⟨rS9, k0_pay18 (k0_pay17 v2)⟩,
   ⟨rS8, k0_pay16 v2⟩,
   ⟨rS7, k0_pay15 v2⟩,
   ⟨rS6, k0_pay14 v2⟩,
   ⟨rS5, k0_pay13 v2⟩,
   ⟨rS4, k0_pay12 v2⟩,
   ⟨rS3, k0_pay11 v1⟩,
   ⟨rS2, k0_pay10 v1⟩,
   ⟨rS1, k0_pay9 v1⟩,
   ⟨rS0, k0_pay8 v1⟩]

end Cert.Kernel.Hand

end
-- ==== Proof.KernelBody.lean ====
/-
  What the kernel body leaves in the output window's staging buffer, and the body's triple.

  The body loads a band of 59 rows of the padded image, starting at the row the second grid coordinate names; it
  fills the whole output buffer (30 patches × 10 channels × 61 × 61) with zero, and then, for each of the thirty
  window columns `j`, stores into patch `j` the 59 × 59 window of the band at column offset `j`, with the
  auxiliary eleventh channel dropped and the channel axis moved to the front. Before each of these stores the
  body also loads the target patch, and never uses what it loaded.
  So the buffer ends as the canon of thirty-one stores: the thirty patches, latest first, over the zero fill.
-/
import proofs.«147410_j25297357373688_1_alg».proof.Proof.KernelMain
import proofs.«147410_j25297357373688_1_alg».proof.Proof.KernelTable

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The band of 59 rows the body loads, at the row offset the grid point names. -/
abbrev rIn (i : grid0.Coords) : Rect S1x88x88x11 := Rect.unit (s := S1x88x88x11) (k0_off1 i) S1x59x88x11.size (k0_off1_inb i)
/-- The whole output buffer: the zero fill's rectangle. -/
abbrev rAll : Rect S30x10x61x61 := Rect.unit (s := S30x10x61x61) ![0, 0, 0, 0] S30x10x61x61.size inb_S30x10x61x61_S30x10x61x61_0_0_0_0
/-! ## What the body leaves in the output buffer -/

/-- The output buffer after the body at grid coordinates `i`, from the input block `x0`: the thirty patch stores over
    the zero fill. -/
def out0_1 (i : grid0.Coords) (x0 : Vec F S1x88x88x11 .f32) : Vec F S30x10x61x61 .f32 :=
  View.canon (slabs (View.ld x0 (rIn i)) ++ [⟨rAll, k0_pay7 (F := F)⟩])

/-- The zero fill covers every index of the buffer, so the thirty-one stores do. -/
theorem cover0_1 (L : List (View.Piece (Elt F) S30x10x61x61 .f32)) (p0 : Vec F S30x10x61x61 .f32) (y : S30x10x61x61.Idx) :
    ∃ pc ∈ (L ++ [⟨rAll, p0⟩] : List (View.Piece (Elt F) S30x10x61x61 .f32)), y ∈ pc.1.set := by
  obtain ⟨pc, hpc, hy⟩ := View.cover_of_tiled [(⟨rAll, p0⟩ : View.Piece (Elt F) S30x10x61x61 .f32)] S30x10x61x61.size (by rfl) y
  exact ⟨pc, List.mem_append_right _ hpc, hy⟩

/-! ## The body's triple -/

set_option maxHeartbeats 4000000 in
/-- The kernel body on whole staging memrefs, the input's at contents `x0` and the output's at anything, runs to the
    continuation holding the input's as it was and the output's at `out0_1 i x0`. -/
theorem sound_kernel (c : Dev nD) (E : Set ℕ) (i : grid0.Coords) (arg2 : Memref sig .tc .vmem S1x88x88x11 .f32) (harg2 : arg2.IsWhole) (arg3 : Memref sig .tc .vmem S30x10x61x61 .f32) (harg3 : arg3.IsWhole)
    (x0 : Vec F S1x88x88x11 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 i x0)) -∗ K ⟨⟩))
      ⊢ wp frame (wpE (defs₀ (F := F)) Variants.none c none) E (cc0_kernel i arg2 harg2 arg3 harg3) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon arg3.view f1
    (slabs (View.ld (View.read (Elt F) arg2.view f0) (rIn i)) ++ [⟨rAll, k0_pay7 (F := F)⟩]) (cover0_1 _ _)

end Cert.Kernel.Hand

end
-- ==== Proof.KernelRun.lean ====
/-
  The kernel's run: the pipeline's proof data, the body obligation at every grid point, the run of @main
  and the frame.

  After the body at grid point `t` the input window's buffer still holds its block (one batch element of the padded
  image) and the output window's buffer holds `out0_1` of that block at `t`'s coordinates; nothing is carried from
  one point to the next.
-/
import proofs.«147410_j25297357373688_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t`
    the input's buffer at its block and the output's at `out0_1` of it; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (grid0.coords t) (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (grid0.coords t) (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data's points wrote back and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs, nothing faults, and the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KernelIdealMain.lean ====
/-
  The kernel's @main around its one region.

  @main is seven stretches of host operations (three slices of the argument, each padded to 88 × 88, joined along the
  channel axis and transposed to channels-last), the region, and one reshape of the region's result. The contents the
  region finds are the host stretches folded over the launch memory; no stretch writes the argument, and the reshape
  after the region writes neither the argument nor an array the region stages.
-/
import proofs.«147410_j25297357373688_1_alg».proof.Proof.Gen.KernelIdeal.Launch
import proofs.«147410_j25297357373688_1_alg».proof.Proof.Gen.KernelIdeal.Skeleton
import proofs.«147410_j25297357373688_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the seven host stretches folded over the launch memory. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- The reshape after the region touches only arrays of the pipeline and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer only, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.nary_writes, StableHlo.reshape_writes,
      StableHlo.TRef.unary, StableHlo.TRef.binary, Finset.mem_singleton]
    repeat' apply And.intro
    all_goals exact StableHlo.devRef_ne_of_ne (by decide)))

/-- Nor does the reshape after it: the argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not (the window is
    fetched only when the batch coordinate moves; in between the block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post, read at the argument (which no window stages and no host operation writes),
    is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

end Cert.KernelIdeal.Hand

end
-- ==== Proof.KernelIdealTable.lean ====
/- The output buffer's thirty patch rectangles, and the thirty patch stores as pieces, latest first: store j
   writes, at patch j's 10 x 59 x 59 corner, the skeleton's payload for window column j. Definitions only. -/
import proofs.«147410_j25297357373688_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe

variable {F : FTy → Type} [FloatOps F]

/-- Patch 0's 10 × 59 × 59 corner. -/
abbrev rS0 : Rect S30x10x61x61 := Rect.unit (s := S30x10x61x61) ![0, 0, 0, 0] S1x10x59x59.size inb_S30x10x61x61_S1x10x59x59_0_0_0_0
/-- Patch 1's 10 × 59 × 59 corner. -/
abbrev rS1 : Rect S30x10x61x61 := Rect.unit (s := S30x10x61x61) ![1, 0, 0, 0] S1x10x59x59.size inb_S30x10x61x61_S1x10x59x59_1_0_0_0
/-- Patch 2's 10 × 59 × 59 corner. -/
abbrev rS2 : Rect S30x10x61x61 := Rect.unit (s := S30x10x61x61) ![2, 0, 0, 0] S1x10x59x59.size inb_S30x10x61x61_S1x10x59x59_2_0_0_0
/-- Patch 3's 10 × 59 × 59 corner. -/
abbrev rS3 : Rect S30x10x61x61 := Rect.unit (s := S30x10x61x61) ![3, 0, 0, 0] S1x10x59x59.size inb_S30x10x61x61_S1x10x59x59_3_0_0_0
/-- Patch 4's 10 × 59 × 59 corner. -/
abbrev rS4 : Rect S30x10x61x61 := Rect.unit (s := S30x10x61x61) ![4, 0, 0, 0] S1x10x59x59.size inb_S30x10x61x61_S1x10x59x59_4_0_0_0
/-- Patch 5's 10 × 59 × 59 corner. -/
abbrev rS5 : Rect S30x10x61x61 := Rect.unit (s := S30x10x61x61) ![5, 0, 0, 0] S1x10x59x59.size inb_S30x10x61x61_S1x10x59x59_5_0_0_0
/-- Patch 6's 10 × 59 × 59 corner. -/
abbrev rS6 : Rect S30x10x61x61 := Rect.unit (s := S30x10x61x61) ![6, 0, 0, 0] S1x10x59x59.size inb_S30x10x61x61_S1x10x59x59_6_0_0_0
/-- Patch 7's 10 × 59 × 59 corner. -/
abbrev rS7 : Rect S30x10x61x61 := Rect.unit (s := S30x10x61x61) ![7, 0, 0, 0] S1x10x59x59.size inb_S30x10x61x61_S1x10x59x59_7_0_0_0
/-- Patch 8's 10 × 59 × 59 corner. -/
abbrev rS8 : Rect S30x10x61x61 := Rect.unit (s := S30x10x61x61) ![8, 0, 0, 0] S1x10x59x59.size inb_S30x10x61x61_S1x10x59x59_8_0_0_0
/-- Patch 9's 10 × 59 × 59 corner. -/
abbrev rS9 : Rect S30x10x61x61 := Rect.unit (s := S30x10x61x61) ![9, 0, 0, 0] S1x10x59x59.size inb_S30x10x61x61_S1x10x59x59_9_0_0_0
/-- Patch 10's 10 × 59 × 59 corner. -/
abbrev rS10 : Rect S30x10x61x61 := Rect.unit (s := S30x10x61x61) ![10, 0, 0, 0] S1x10x59x59.size inb_S30x10x61x61_S1x10x59x59_10_0_0_0
/-- Patch 11's 10 × 59 × 59 corner. -/
abbrev rS11 : Rect S30x10x61x61 := Rect.unit (s := S30x10x61x61) ![11, 0, 0, 0] S1x10x59x59.size inb_S30x10x61x61_S1x10x59x59_11_0_0_0
/-- Patch 12's 10 × 59 × 59 corner. -/
abbrev rS12 : Rect S30x10x61x61 := Rect.unit (s := S30x10x61x61) ![12, 0, 0, 0] S1x10x59x59.size inb_S30x10x61x61_S1x10x59x59_12_0_0_0
/-- Patch 13's 10 × 59 × 59 corner. -/
abbrev rS13 : Rect S30x10x61x61 := Rect.unit (s := S30x10x61x61) ![13, 0, 0, 0] S1x10x59x59.size inb_S30x10x61x61_S1x10x59x59_13_0_0_0
/-- Patch 14's 10 × 59 × 59 corner. -/
abbrev rS14 : Rect S30x10x61x61 := Rect.unit (s := S30x10x61x61) ![14, 0, 0, 0] S1x10x59x59.size inb_S30x10x61x61_S1x10x59x59_14_0_0_0
/-- Patch 15's 10 × 59 × 59 corner. -/
abbrev rS15 : Rect S30x10x61x61 := Rect.unit (s := S30x10x61x61) ![15, 0, 0, 0] S1x10x59x59.size inb_S30x10x61x61_S1x10x59x59_15_0_0_0
/-- Patch 16's 10 × 59 × 59 corner. -/
abbrev rS16 : Rect S30x10x61x61 := Rect.unit (s := S30x10x61x61) ![16, 0, 0, 0] S1x10x59x59.size inb_S30x10x61x61_S1x10x59x59_16_0_0_0
/-- Patch 17's 10 × 59 × 59 corner. -/
abbrev rS17 : Rect S30x10x61x61 := Rect.unit (s := S30x10x61x61) ![17, 0, 0, 0] S1x10x59x59.size inb_S30x10x61x61_S1x10x59x59_17_0_0_0
/-- Patch 18's 10 × 59 × 59 corner. -/
abbrev rS18 : Rect S30x10x61x61 := Rect.unit (s := S30x10x61x61) ![18, 0, 0, 0] S1x10x59x59.size inb_S30x10x61x61_S1x10x59x59_18_0_0_0
/-- Patch 19's 10 × 59 × 59 corner. -/
abbrev rS19 : Rect S30x10x61x61 := Rect.unit (s := S30x10x61x61) ![19, 0, 0, 0] S1x10x59x59.size inb_S30x10x61x61_S1x10x59x59_19_0_0_0
/-- Patch 20's 10 × 59 × 59 corner. -/
abbrev rS20 : Rect S30x10x61x61 := Rect.unit (s := S30x10x61x61) ![20, 0, 0, 0] S1x10x59x59.size inb_S30x10x61x61_S1x10x59x59_20_0_0_0
/-- Patch 21's 10 × 59 × 59 corner. -/
abbrev rS21 : Rect S30x10x61x61 := Rect.unit (s := S30x10x61x61) ![21, 0, 0, 0] S1x10x59x59.size inb_S30x10x61x61_S1x10x59x59_21_0_0_0
/-- Patch 22's 10 × 59 × 59 corner. -/
abbrev rS22 : Rect S30x10x61x61 := Rect.unit (s := S30x10x61x61) ![22, 0, 0, 0] S1x10x59x59.size inb_S30x10x61x61_S1x10x59x59_22_0_0_0
/-- Patch 23's 10 × 59 × 59 corner. -/
abbrev rS23 : Rect S30x10x61x61 := Rect.unit (s := S30x10x61x61) ![23, 0, 0, 0] S1x10x59x59.size inb_S30x10x61x61_S1x10x59x59_23_0_0_0
/-- Patch 24's 10 × 59 × 59 corner. -/
abbrev rS24 : Rect S30x10x61x61 := Rect.unit (s := S30x10x61x61) ![24, 0, 0, 0] S1x10x59x59.size inb_S30x10x61x61_S1x10x59x59_24_0_0_0
/-- Patch 25's 10 × 59 × 59 corner. -/
abbrev rS25 : Rect S30x10x61x61 := Rect.unit (s := S30x10x61x61) ![25, 0, 0, 0] S1x10x59x59.size inb_S30x10x61x61_S1x10x59x59_25_0_0_0
/-- Patch 26's 10 × 59 × 59 corner. -/
abbrev rS26 : Rect S30x10x61x61 := Rect.unit (s := S30x10x61x61) ![26, 0, 0, 0] S1x10x59x59.size inb_S30x10x61x61_S1x10x59x59_26_0_0_0
/-- Patch 27's 10 × 59 × 59 corner. -/
abbrev rS27 : Rect S30x10x61x61 := Rect.unit (s := S30x10x61x61) ![27, 0, 0, 0] S1x10x59x59.size inb_S30x10x61x61_S1x10x59x59_27_0_0_0
/-- Patch 28's 10 × 59 × 59 corner. -/
abbrev rS28 : Rect S30x10x61x61 := Rect.unit (s := S30x10x61x61) ![28, 0, 0, 0] S1x10x59x59.size inb_S30x10x61x61_S1x10x59x59_28_0_0_0
/-- Patch 29's 10 × 59 × 59 corner. -/
abbrev rS29 : Rect S30x10x61x61 := Rect.unit (s := S30x10x61x61) ![29, 0, 0, 0] S1x10x59x59.size inb_S30x10x61x61_S1x10x59x59_29_0_0_0

/-- The thirty patch stores, latest first, as pieces over the loaded band `v1` (its leading unit axis dropped: `v2`). -/
def slabs (v1 : Vec F S1x59x88x11 .f32) : List (View.Piece (Elt F) S30x10x61x61 .f32) :=
  let v2 : FVec F S59x88x11 .f32 := k0_pay6 v1
  [⟨rS29, k0_pay5 v2⟩,
   ⟨rS28, k0_pay4 v2⟩,
   ⟨rS27, k0_pay3 v2⟩,
   ⟨rS26, k0_pay2 v2⟩,
   ⟨rS25, k0_pay1 (k0_pay35 v2)⟩,
   ⟨rS24, k0_pay34 v2⟩,
   ⟨rS23, k0_pay33 v2⟩,
   ⟨rS22, k0_pay32 v2⟩,
   ⟨rS21, k0_pay31 v2⟩,
   ⟨rS20, k0_pay30 (k0_pay29 v2)⟩,
   ⟨rS19, k0_pay28 v2⟩,
   ⟨rS18, k0_pay27 v2⟩,
   ⟨rS17, k0_pay26 v2⟩,
   ⟨rS16, k0_pay25 v2⟩,
   ⟨rS15, k0_pay24 v2⟩,
   ⟨rS14, k0_pay23 v2⟩,
   ⟨rS13, k0_pay22 v2⟩,
   ⟨rS12, k0_pay21 v2⟩,
   ⟨rS11, k0_pay20 v2⟩,
   ⟨rS10, k0_pay19 v2⟩,
   ⟨rS9, k0_pay18 (k0_pay17 v2)⟩,
   ⟨rS8, k0_pay16 v2⟩,
   ⟨rS7, k0_pay15 v2⟩,
   ⟨rS6, k0_pay14 v2⟩,
   ⟨rS5, k0_pay13 v2⟩,
   ⟨rS4, k0_pay12 v2⟩,
   ⟨rS3, k0_pay11 v1⟩,
   ⟨rS2, k0_pay10 v1⟩,
   ⟨rS1, k0_pay9 v1⟩,
   ⟨rS0, k0_pay8 v1⟩]

end Cert.KernelIdeal.Hand

end
-- ==== Proof.KernelIdealBody.lean ====
/-
  What the kernel body leaves in the output window's staging buffer, and the body's triple.

  The body loads a band of 59 rows of the padded image, starting at the row the second grid coordinate names; it
  fills the whole output buffer (30 patches × 10 channels × 61 × 61) with zero, and then, for each of the thirty
  window columns `j`, stores into patch `j` the 59 × 59 window of the band at column offset `j`, with the
  auxiliary eleventh channel dropped and the channel axis moved to the front. Before each of these stores the
  body also loads the target patch, and never uses what it loaded.
  So the buffer ends as the canon of thirty-one stores: the thirty patches, latest first, over the zero fill.
-/
import proofs.«147410_j25297357373688_1_alg».proof.Proof.KernelIdealMain
import proofs.«147410_j25297357373688_1_alg».proof.Proof.KernelIdealTable

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The band of 59 rows the body loads, at the row offset the grid point names. -/
abbrev rIn (i : grid0.Coords) : Rect S1x88x88x11 := Rect.unit (s := S1x88x88x11) (k0_off1 i) S1x59x88x11.size (k0_off1_inb i)
/-- The whole output buffer: the zero fill's rectangle. -/
abbrev rAll : Rect S30x10x61x61 := Rect.unit (s := S30x10x61x61) ![0, 0, 0, 0] S30x10x61x61.size inb_S30x10x61x61_S30x10x61x61_0_0_0_0
/-! ## What the body leaves in the output buffer -/

/-- The output buffer after the body at grid coordinates `i`, from the input block `x0`: the thirty patch stores over
    the zero fill. -/
def out0_1 (i : grid0.Coords) (x0 : Vec F S1x88x88x11 .f32) : Vec F S30x10x61x61 .f32 :=
  View.canon (slabs (View.ld x0 (rIn i)) ++ [⟨rAll, k0_pay7 (F := F)⟩])

/-- The zero fill covers every index of the buffer, so the thirty-one stores do. -/
theorem cover0_1 (L : List (View.Piece (Elt F) S30x10x61x61 .f32)) (p0 : Vec F S30x10x61x61 .f32) (y : S30x10x61x61.Idx) :
    ∃ pc ∈ (L ++ [⟨rAll, p0⟩] : List (View.Piece (Elt F) S30x10x61x61 .f32)), y ∈ pc.1.set := by
  obtain ⟨pc, hpc, hy⟩ := View.cover_of_tiled [(⟨rAll, p0⟩ : View.Piece (Elt F) S30x10x61x61 .f32)] S30x10x61x61.size (by rfl) y
  exact ⟨pc, List.mem_append_right _ hpc, hy⟩

/-! ## The body's triple -/

set_option maxHeartbeats 4000000 in
/-- The kernel body on whole staging memrefs, the input's at contents `x0` and the output's at anything, runs to the
    continuation holding the input's as it was and the output's at `out0_1 i x0`. -/
theorem sound_kernel (c : Dev nD) (E : Set ℕ) (i : grid0.Coords) (arg2 : Memref sig .tc .vmem S1x88x88x11 .f32) (harg2 : arg2.IsWhole) (arg3 : Memref sig .tc .vmem S30x10x61x61 .f32) (harg3 : arg3.IsWhole)
    (x0 : Vec F S1x88x88x11 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 i x0)) -∗ K ⟨⟩))
      ⊢ wp frame (wpE (defs₀ (F := F)) Variants.none c none) E (cc0_kernel i arg2 harg2 arg3 harg3) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon arg3.view f1
    (slabs (View.ld (View.read (Elt F) arg2.view f0) (rIn i)) ++ [⟨rAll, k0_pay7 (F := F)⟩]) (cover0_1 _ _)

end Cert.KernelIdeal.Hand

end
-- ==== Proof.KernelIdealRun.lean ====
/-
  The kernel's run: the pipeline's proof data, the body obligation at every grid point, the run of @main
  and the frame.

  After the body at grid point `t` the input window's buffer still holds its block (one batch element of the padded
  image) and the output window's buffer holds `out0_1` of that block at `t`'s coordinates; nothing is carried from
  one point to the next.
-/
import proofs.«147410_j25297357373688_1_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t`
    the input's buffer at its block and the output's at `out0_1` of it; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (grid0.coords t) (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (grid0.coords t) (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data's points wrote back and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs, nothing faults, and the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The common value of the two programs, as ONE function of the padded image.

  The padded image `X` has shape [4, 88, 88, 11] (batch, row, column, channel). Output row `r` of 3600 names a batch
  element `n = r / 900` and a window corner `(i, j) = (r / 30 % 30, r % 30)`; output column `k` of 3721 = 61 · 61 names
  a position `(hl, wl) = (k / 61, k % 61)` inside the 61 × 61 patch buffer. The patch proper is 59 × 59 and sits at
  the top left: there the entry is `X n (i + hl) (j + wl) c`; the two extra rows and columns hold zero.
  Only the first ten of the eleven channels are kept.
-/
import Idealize.ShloMosaic.PureOps.Ideal
import Idealize.ShloMosaic.Lib.ValueIdx

noncomputable section

namespace Cert.Spec

open Idealize.ShloMosaic Idealize.ShloMosaic.ValueIdx

/-- The padded image's shape. -/
abbrev SX : Shape := ⟨4, ![4, 88, 88, 11]⟩
/-- One batch element of it: what one grid point is handed. -/
abbrev SXb : Shape := ⟨4, ![1, 88, 88, 11]⟩
/-- What one grid point writes: the thirty patches of one window row. -/
abbrev SBlk : Shape := ⟨4, ![30, 10, 61, 61]⟩
/-- The kernel's result before its last reshape. -/
abbrev SOut4 : Shape := ⟨4, ![3600, 10, 61, 61]⟩
/-- The result. -/
abbrev SOut : Shape := ⟨3, ![3600, 10, 3721]⟩

/-- Patch `j` of window row `i` (a natural number below 30) of ONE batch element `x`: entry `(c, hl, wl)` is
    `x 0 (i + hl) (j + wl) c` inside the 59 × 59 patch and zero on the two extra rows and columns. An `i` that is
    out of range reads zero. -/
def rowBlock (i : Nat) (x : FVec Ideal SXb .f32) (y : SBlk.Idx) : Ideal .f32 :=
  if h : (y 2).val < 59 ∧ (y 3).val < 59 ∧ i < 30 then
    x (ix4 (n0 := 1) (n1 := 88) (n2 := 88) (n3 := 11) ⟨0, by omega⟩
      ⟨i + (y 2).val, by omega⟩
      ⟨(y 0).val + (y 3).val, by have := (y 0).isLt; have h0 : (y 0).val < 30 := this; omega⟩
      ⟨(y 1).val, by have := (y 1).isLt; have h1 : (y 1).val < 10 := this; omega⟩)
  else (0 : EReal)

/-- The kernel's result before its last reshape: row `r`, channel `c`, patch position `(hl, wl)`. -/
def patch4 (X : FVec Ideal SX .f32) (y : SOut4.Idx) : Ideal .f32 :=
  if h : (y 2).val < 59 ∧ (y 3).val < 59 then
    X (ix4 (n0 := 4) (n1 := 88) (n2 := 88) (n3 := 11)
      ⟨(y 0).val / 900, by have := (y 0).isLt; have h0 : (y 0).val < 3600 := this; omega⟩
      ⟨(y 0).val / 30 % 30 + (y 2).val, by omega⟩
      ⟨(y 0).val % 30 + (y 3).val, by omega⟩
      ⟨(y 1).val, by have := (y 1).isLt; have h1 : (y 1).val < 10 := this; omega⟩)
  else (0 : EReal)

/-- The result: `patch4` with the patch position flattened, `k = 61 · hl + wl`. -/
def patch (X : FVec Ideal SX .f32) (z : SOut.Idx) : Ideal .f32 :=
  patch4 X (ix4 (n0 := 3600) (n1 := 10) (n2 := 61) (n3 := 61) (z 0) (z 1)
    ⟨(z 2).val / 61, by have := (z 2).isLt; have h2 : (z 2).val < 3721 := this; omega⟩
    ⟨(z 2).val % 61, by omega⟩)

end Cert.Spec

end
-- ==== Proof.LibCanonOff.lean ====
/-
  A general lemma: the canon of a list of stores at an index none of the FIRST stores holds.

  The contents a list of stores leaves (`View.canon`, the list written last store first) are, at each index, the payload
  of the first store of the list whose rectangle holds the index. So at an index that none of the stores of a first
  list `L` holds, the canon of `L` followed by earlier stores `L'` is the canon of `L'` alone: a buffer filled whole
  and then overwritten in part reads the fill wherever no later store reaches. The library states the companion fact
  (`View.canon_append_of_pieces`: where one of the first stores does hold the index, and they are blocks of one
  function, the canon is that function); this is the other half.
-/
import Idealize.ShloMosaic.Lib.Pipeline.FrameBody

noncomputable section

namespace Idealize.ShloMosaic.View

variable {Val : EltTy → Type} {S : Shape} {e : EltTy}

/-- At an index that no store of `L` holds, the canon of `L` followed by the earlier stores `L'` is the canon of `L'`. -/
theorem canon_append_of_forall_not_mem [∀ e, Nonempty (Val e)] (L' : List (Piece Val S e)) (y : S.Idx) :
    ∀ (L : List (Piece Val S e)) (_ : ∀ p ∈ L, y ∉ p.1.set), canon (L ++ L') y = canon L' y
  | [], _ => rfl
  | p :: L, h => by
    rw [List.cons_append, canon_cons_of_not_mem p (L ++ L') (h p (List.mem_cons_self ..))]
    exact canon_append_of_forall_not_mem L' y L (fun q hq => h q (List.mem_cons_of_mem _ hq))

end Idealize.ShloMosaic.View

end
-- ==== Proof.KernelIdealOut.lean ====
/-
  The output window's buffer after the body, read as one function: at the Ideal instance the canon of the thirty
  patch stores over the zero fill is the specification's block function.
-/
import proofs.«147410_j25297357373688_1_alg».proof.Proof.KernelIdealBody
import proofs.«147410_j25297357373688_1_alg».proof.Proof.Spec
import Idealize.ShloMosaic.Lib.ValueIdx
import Idealize.ShloMosaic.Lib.Pipeline.Value
import Idealize.ShloMosaic.Lib.Pipeline.CanonAppend
import Idealize.ShloMosaic.PureOps.Ideal.Laws
import proofs.«147410_j25297357373688_1_alg».proof.Proof.LibCanonOff

noncomputable section

namespace Cert.KernelIdeal.HandValue

open Cert.KernelIdeal Cert.KernelIdeal.Gen Cert.KernelIdeal.Hand
open Idealize.ShloMosaic Idealize.ShloMosaic.TcCoe Idealize.ShloMosaic.ValueIdx

/-! ## One patch's payload read at an index -/

/-- One patch's payload from the band `v2` (59 rows × 88 columns × 11 channels) at column offset `o`: the 59 × 59 × 11
    window at column `o`, its eleventh channel dropped, the channel axis moved to the front, a leading unit axis added. -/
def patchPay {α : Type} (o : Nat) (v2 : S59x88x11.Idx → α)
    (h1 : S59x88x11.Slices ![0, o, 0] S59x59x11) (h2 : S59x59x11.Slices ![0, 0, 0] S59x59x10)
    (h3 : S59x59x10.Transposes [2, 0, 1] S10x59x59) (h4 : S10x59x59.ShapeCasts S1x10x59x59) : S1x10x59x59.Idx → α :=
  shapeCast S1x10x59x59 (transpose S10x59x59 [2, 0, 1]
    (extractStridedSlice S59x59x10 ![0, 0, 0] (extractStridedSlice S59x59x11 ![0, o, 0] v2 h1) h2) h3) h4

/-- At `(0, c, hl, wl)` it is the band at `(hl, o + wl, c)`. -/
theorem patchPay_apply {α : Type} (o : Nat) (ho : o + 59 ≤ 88) (v2 : S59x88x11.Idx → α)
    (h1 : S59x88x11.Slices ![0, o, 0] S59x59x11) (h2 : S59x59x11.Slices ![0, 0, 0] S59x59x10)
    (h3 : S59x59x10.Transposes [2, 0, 1] S10x59x59) (h4 : S10x59x59.ShapeCasts S1x10x59x59)
    (z : Fin 1) (c : Fin 10) (hl : Fin 59) (wl : Fin 59) :
    patchPay o v2 h1 h2 h3 h4 (ix4 z c hl wl)
      = v2 (ix3 hl ⟨o + wl.val, by have := wl.isLt; omega⟩ ⟨c.val, by have := c.isLt; omega⟩) := by
  have hz : z.val < 1 := z.isLt
  have hc : c.val < 10 := c.isLt
  have hhl : hl.val < 59 := hl.isLt
  have hwl : wl.val < 59 := wl.isLt
  unfold patchPay
  -- the shape cast: [1,10,59,59] at (0, c, hl, wl) reads [10,59,59] at (c, hl, wl)
  refine (shapeCast_apply _ _ (ix4 z c hl wl) (ix3 c hl wl)
    (by rw [Shape.rowMajor_val_three, Shape.rowMajor_val_four]
        show (c.val * 59 + hl.val) * 59 + wl.val = ((z.val * 10 + c.val) * 59 + hl.val) * 59 + wl.val
        omega)).trans ?_
  -- the transpose [2,0,1]: [10,59,59] at (c, hl, wl) reads [59,59,10] at (hl, wl, c)
  refine (transpose_apply _ _ _ (ix3 c hl wl) (ix3 hl wl c)
    (fun b => match b with | ⟨0, _⟩ => rfl | ⟨1, _⟩ => rfl | ⟨2, _⟩ => rfl)).trans ?_
  -- the channel slice: [59,59,10] at (hl, wl, c) reads [59,59,11] at (hl, wl, c)
  refine (extractStridedSlice_apply _ _ _ (ix3 hl wl c) (ix3 hl wl ⟨c.val, by omega⟩)
    (fun a => match a with
      | ⟨0, _⟩ => by show hl.val = 0 + hl.val; omega
      | ⟨1, _⟩ => by show wl.val = 0 + wl.val; omega
      | ⟨2, _⟩ => by show c.val = 0 + c.val; omega)).trans ?_
  -- the column slice at offset o: [59,59,11] at (hl, wl, c) reads the band at (hl, o + wl, c)
  exact extractStridedSlice_apply _ _ _ (ix3 hl wl ⟨c.val, by omega⟩) (ix3 hl ⟨o + wl.val, by omega⟩ ⟨c.val, by omega⟩)
    (fun a => match a with
      | ⟨0, _⟩ => by show hl.val = 0 + hl.val; omega
      | ⟨1, _⟩ => by show o + wl.val = o + wl.val; rfl
      | ⟨2, _⟩ => by show c.val = 0 + c.val; omega)

/-! ## The specification's block function at an index -/

/-- Inside the 59 × 59 patch the block function reads the batch element. -/
theorem rowBlock_of_inside (r : Nat) (hr : r < 30) (x : FVec Ideal Cert.Spec.SXb .f32) (y : Cert.Spec.SBlk.Idx)
    (h2 : (y 2).val < 59) (h3 : (y 3).val < 59) (k : Cert.Spec.SXb.Idx)
    (hk0 : (k 0).val = 0) (hk1 : (k 1).val = r + (y 2).val) (hk2 : (k 2).val = (y 0).val + (y 3).val)
    (hk3 : (k 3).val = (y 1).val) : Cert.Spec.rowBlock r x y = x k := by
  unfold Cert.Spec.rowBlock
  rw [dif_pos ⟨h2, h3, hr⟩]
  refine congrArg x (funext fun a => Fin.ext ?_)
  match a with
  | ⟨0, _⟩ => exact hk0.symm
  | ⟨1, _⟩ => exact hk1.symm
  | ⟨2, _⟩ => exact hk2.symm
  | ⟨3, _⟩ => exact hk3.symm

/-- On the two extra rows and columns it is zero. -/
theorem rowBlock_of_outside (r : Nat) (x : FVec Ideal Cert.Spec.SXb .f32) (y : Cert.Spec.SBlk.Idx)
    (h : ¬((y 2).val < 59 ∧ (y 3).val < 59)) : Cert.Spec.rowBlock r x y = (0 : EReal) := by
  unfold Cert.Spec.rowBlock
  rw [dif_neg (fun hh => h ⟨hh.1, hh.2.1⟩)]

/-! ## Each patch store is a block of the block function -/

/-- The band the body loads, its leading unit axis dropped, at `(hl, w, c)` is the input block at `(0, i₁ + hl, w, c)`. -/
theorem band_apply (i : grid0.Coords) (x0 : Vec Ideal S1x88x88x11 .f32) (hl : Fin 59) (w : Fin 88) (c : Fin 11) :
    k0_pay6 (F := Ideal) (View.ld x0 (rIn i)) (ix3 hl w c)
      = x0 (ix4 (n0 := 1) (n1 := 88) (n2 := 88) (n3 := 11) ⟨0, by omega⟩
          ⟨(i 1).val + hl.val, by have := (i 1).isLt; have h : (i 1).val < 30 := this; have := hl.isLt; omega⟩ w c) := by
  have hi : (i 1).val < 30 := (i 1).isLt
  have hhl : hl.val < 59 := hl.isLt
  have hw : w.val < 88 := w.isLt
  have hc : c.val < 11 := c.isLt
  unfold k0_pay6
  refine (shapeCast_apply _ _ (ix3 hl w c) (ix4 (n0 := 1) ⟨0, by omega⟩ hl w c)
    (by rw [Shape.rowMajor_val_three, Shape.rowMajor_val_four]
        show ((0 * 59 + hl.val) * 88 + w.val) * 11 + c.val = (hl.val * 88 + w.val) * 11 + c.val
        omega)).trans ?_
  show x0 ((rIn i).idx _) = x0 _
  refine congrArg x0 (funext fun a => Fin.ext ?_)
  rw [LoadRect.idx_apply]
  show (k0_off1 i) a + 1 * _ = _
  rw [k0_off1_eq]
  match a with
  | ⟨0, _⟩ => show 0 + 1 * 0 = 0; omega
  | ⟨1, _⟩ => show (i 1).val + 1 * hl.val = (i 1).val + hl.val; omega
  | ⟨2, _⟩ => show 0 + 1 * w.val = w.val; omega
  | ⟨3, _⟩ => show 0 + 1 * c.val = c.val; omega

/-- Patch `j`'s store is a block of the block function: its payload at `(0, c, hl, wl)` is the block function at
    `(j, c, hl, wl)`, the index its rectangle places it at. -/
theorem patch_block (i : grid0.Coords) (x0 : Vec Ideal S1x88x88x11 .f32) (j : Nat) (hj : j < 30)
    (inb : ∀ a, (![j, 0, 0, 0] : Fin 4 → Nat) a + S1x10x59x59.size a ≤ S30x10x61x61.size a)
    (h1 : S59x88x11.Slices ![0, j, 0] S59x59x11) (h2 : S59x59x11.Slices ![0, 0, 0] S59x59x10)
    (h3 : S59x59x10.Transposes [2, 0, 1] S10x59x59) (h4 : S10x59x59.ShapeCasts S1x10x59x59)
    (x : S1x10x59x59.Idx) :
    patchPay j (k0_pay6 (F := Ideal) (View.ld x0 (rIn i))) h1 h2 h3 h4 x
      = Cert.Spec.rowBlock (i 1).val x0 ((Rect.unit (s := S30x10x61x61) ![j, 0, 0, 0] S1x10x59x59.size inb).emb x) := by
  have hi : (i 1).val < 30 := (i 1).isLt
  have hx0 : (x 0).val < 1 := (x 0).isLt
  have hx1 : (x 1).val < 10 := (x 1).isLt
  have hx2 : (x 2).val < 59 := (x 2).isLt
  have hx3 : (x 3).val < 59 := (x 3).isLt
  refine (congrArg (patchPay j (k0_pay6 (F := Ideal) (View.ld x0 (rIn i))) h1 h2 h3 h4) (eq_ix4 x)).trans ?_
  refine (patchPay_apply j (by omega) _ h1 h2 h3 h4 (x 0) (x 1) (x 2) (x 3)).trans ?_
  refine (band_apply i x0 _ _ _).trans ?_
  symm
  refine rowBlock_of_inside _ hi _ _ ?_ ?_ _ ?_ ?_ ?_ ?_
  · show 0 + 1 * (x 2).val < 59; omega
  · show 0 + 1 * (x 3).val < 59; omega
  · rfl
  · show (i 1).val + (x 2).val = (i 1).val + (0 + 1 * (x 2).val); omega
  · show j + (x 3).val = (j + 1 * (x 0).val) + (0 + 1 * (x 3).val); omega
  · show (x 1).val = 0 + 1 * (x 1).val; omega

/-! ## Membership in a patch's rectangle, by coordinates -/

/-- An index inside the 59 × 59 corner of patch `j` is in patch `j`'s rectangle. -/
theorem mem_patch (j : Nat) (inb : ∀ a, (![j, 0, 0, 0] : Fin 4 → Nat) a + S1x10x59x59.size a ≤ S30x10x61x61.size a)
    (y : S30x10x61x61.Idx) (h0 : (y 0).val = j) (h2 : (y 2).val < 59) (h3 : (y 3).val < 59) :
    y ∈ (Rect.unit (s := S30x10x61x61) ![j, 0, 0, 0] S1x10x59x59.size inb).set := by
  have h1 : (y 1).val < 10 := (y 1).isLt
  rw [Rect.mem_set_unit]
  intro a
  match a with
  | ⟨0, _⟩ => show j ≤ (y 0).val ∧ (y 0).val < j + 1; omega
  | ⟨1, _⟩ => show 0 ≤ (y 1).val ∧ (y 1).val < 0 + 10; omega
  | ⟨2, _⟩ => show 0 ≤ (y 2).val ∧ (y 2).val < 0 + 59; omega
  | ⟨3, _⟩ => show 0 ≤ (y 3).val ∧ (y 3).val < 0 + 59; omega

/-- An index on the two extra rows or columns is in no patch's rectangle. -/
theorem not_mem_patch (j : Nat) (inb : ∀ a, (![j, 0, 0, 0] : Fin 4 → Nat) a + S1x10x59x59.size a ≤ S30x10x61x61.size a)
    (y : S30x10x61x61.Idx) (h : ¬((y 2).val < 59 ∧ (y 3).val < 59)) :
    y ∉ (Rect.unit (s := S30x10x61x61) ![j, 0, 0, 0] S1x10x59x59.size inb).set := by
  rw [Rect.mem_set_unit]
  intro hm
  have m2 : 0 ≤ (y 2).val ∧ (y 2).val < 0 + 59 := hm 2
  have m3 : 0 ≤ (y 3).val ∧ (y 3).val < 0 + 59 := hm 3
  exact h ⟨by omega, by omega⟩

/-! ## The thirty patch stores, as a table -/

/-- What holds of patch `j`'s store — rectangle: patch `j`'s 10 × 59 × 59 corner; payload: the window at column
    offset `j` — for every `j` below 30, whatever the evidence it is stated with, holds of each of the thirty stores. -/
theorem slabs_forall (v1 : Vec Ideal S1x59x88x11 .f32) (P : View.Piece (Elt Ideal) S30x10x61x61 .f32 → Prop)
    (h : ∀ (j : Nat) (_ : j < 30) inb h1 h2 h3 h4,
      P ⟨Rect.unit (s := S30x10x61x61) ![j, 0, 0, 0] S1x10x59x59.size inb,
         patchPay j (k0_pay6 (F := Ideal) v1) h1 h2 h3 h4⟩) :
    ∀ p ∈ slabs (F := Ideal) v1, P p := by
  intro p hp
  simp only [slabs, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
  · exact h 29 (by omega) _ _ _ _ _
  · exact h 28 (by omega) _ _ _ _ _
  · exact h 27 (by omega) _ _ _ _ _
  · exact h 26 (by omega) _ _ _ _ _
  · exact h 25 (by omega) _ _ _ _ _
  · exact h 24 (by omega) _ _ _ _ _
  · exact h 23 (by omega) _ _ _ _ _
  · exact h 22 (by omega) _ _ _ _ _
  · exact h 21 (by omega) _ _ _ _ _
  · exact h 20 (by omega) _ _ _ _ _
  · exact h 19 (by omega) _ _ _ _ _
  · exact h 18 (by omega) _ _ _ _ _
  · exact h 17 (by omega) _ _ _ _ _
  · exact h 16 (by omega) _ _ _ _ _
  · exact h 15 (by omega) _ _ _ _ _
  · exact h 14 (by omega) _ _ _ _ _
  · exact h 13 (by omega) _ _ _ _ _
  · exact h 12 (by omega) _ _ _ _ _
  · exact h 11 (by omega) _ _ _ _ _
  · exact h 10 (by omega) _ _ _ _ _
  · exact h 9 (by omega) _ _ _ _ _
  · exact h 8 (by omega) _ _ _ _ _
  · exact h 7 (by omega) _ _ _ _ _
  · exact h 6 (by omega) _ _ _ _ _
  · exact h 5 (by omega) _ _ _ _ _
  · exact h 4 (by omega) _ _ _ _ _
  · exact h 3 (by omega) _ _ _ _ _
  · exact h 2 (by omega) _ _ _ _ _
  · exact h 1 (by omega) _ _ _ _ _
  · exact h 0 (by omega) _ _ _ _ _

/-- Each patch below 30 has its store among the thirty. -/
theorem slabs_exists (v1 : Vec Ideal S1x59x88x11 .f32) : ∀ (j : Nat) (_ : j < 30), ∃ inb h1 h2 h3 h4,
    (⟨Rect.unit (s := S30x10x61x61) ![j, 0, 0, 0] S1x10x59x59.size inb,
      patchPay j (k0_pay6 (F := Ideal) v1) h1 h2 h3 h4⟩ : View.Piece (Elt Ideal) S30x10x61x61 .f32) ∈ slabs (F := Ideal) v1
  | 0, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))))))))))⟩
  | 1, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))))))))⟩
  | 2, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))))))))⟩
  | 3, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))))))⟩
  | 4, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))))))⟩
  | 5, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))))⟩
  | 6, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))))⟩
  | 7, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))⟩
  | 8, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))⟩
  | 9, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))⟩
  | 10, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))⟩
  | 11, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))⟩
  | 12, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))⟩
  | 13, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))⟩
  | 14, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))⟩
  | 15, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))⟩
  | 16, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))⟩
  | 17, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))⟩
  | 18, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))⟩
  | 19, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))⟩
  | 20, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))⟩
  | 21, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))⟩
  | 22, _ => ⟨_, _, _, _, _, List.mem_cons_of_mem _ (List.mem_cons_of_mem _ (List.mem_cons_of_mem _ (List.mem_cons_of_mem _ (List.mem_cons_of_mem _ (List.mem_cons_of_mem _ (List.mem_cons_of_mem _ (List.mem_cons_self ..)))))))⟩
  | 23, _ => ⟨_, _, _, _, _, List.mem_cons_of_mem _ (List.mem_cons_of_mem _ (List.mem_cons_of_mem _ (List.mem_cons_of_mem _ (List.mem_cons_of_mem _ (List.mem_cons_of_mem _ (List.mem_cons_self ..))))))⟩
  | 24, _ => ⟨_, _, _, _, _, List.mem_cons_of_mem _ (List.mem_cons_of_mem _ (List.mem_cons_of_mem _ (List.mem_cons_of_mem _ (List.mem_cons_of_mem _ (List.mem_cons_self ..)))))⟩
  | 25, _ => ⟨_, _, _, _, _, List.mem_cons_of_mem _ (List.mem_cons_of_mem _ (List.mem_cons_of_mem _ (List.mem_cons_of_mem _ (List.mem_cons_self ..))))⟩
  | 26, _ => ⟨_, _, _, _, _, List.mem_cons_of_mem _ (List.mem_cons_of_mem _ (List.mem_cons_of_mem _ (List.mem_cons_self ..)))⟩
  | 27, _ => ⟨_, _, _, _, _, List.mem_cons_of_mem _ (List.mem_cons_of_mem _ (List.mem_cons_self ..))⟩
  | 28, _ => ⟨_, _, _, _, _, List.mem_cons_of_mem _ (List.mem_cons_self ..)⟩
  | 29, _ => ⟨_, _, _, _, _, List.mem_cons_self ..⟩
  | n + 30, h => absurd h (by omega)

/-! ## The buffer after the body is the block function -/

/-- The zero fill alone leaves zero everywhere. -/
theorem fill_apply (y : S30x10x61x61.Idx) :
    View.canon [(⟨rAll, k0_pay7 (F := Ideal)⟩ : View.Piece (Elt Ideal) S30x10x61x61 .f32)] y = (0 : EReal) := by
  have e : View.canon [(⟨rAll, k0_pay7 (F := Ideal)⟩ : View.Piece (Elt Ideal) S30x10x61x61 .f32)] = k0_pay7 (F := Ideal) :=
    View.canon_unit_zero (S := S30x10x61x61) (funext fun a => match a with
      | ⟨0, _⟩ => rfl | ⟨1, _⟩ => rfl | ⟨2, _⟩ => rfl | ⟨3, _⟩ => rfl) _ _
  rw [e]
  show Ideal.ofBits .f32 0x00000000#32 = 0
  exact Ideal.ofBits_zero_f32

/-- Index by index: inside a patch's 59 × 59 corner the last store that holds the index is that patch's, a block of the
    block function; on the two extra rows and columns no patch store holds it and the zero fill shows. -/
theorem out0_1_apply (i : grid0.Coords) (x0 : Vec Ideal S1x88x88x11 .f32) (y : S30x10x61x61.Idx) :
    out0_1 (F := Ideal) i x0 y = Cert.Spec.rowBlock (i 1).val x0 y := by
  unfold out0_1
  by_cases hg : (y 2).val < 59 ∧ (y 3).val < 59
  · refine View.canon_append_of_pieces (Val := Elt Ideal) (S := S30x10x61x61) (e := .f32) (Cert.Spec.rowBlock (i 1).val x0) _ _ ?_ y ?_
    · exact slabs_forall _ (fun p => ∀ x : p.1.shape.Idx, p.2 x = Cert.Spec.rowBlock (i 1).val x0 (p.1.emb x))
        (fun j hj inb h1 h2 h3 h4 x => patch_block i x0 j hj inb h1 h2 h3 h4 x)
    · obtain ⟨inb, h1, h2, h3, h4, hm⟩ := slabs_exists (View.ld x0 (rIn i)) (y 0).val (y 0).isLt
      exact ⟨_, hm, mem_patch _ inb y rfl hg.1 hg.2⟩
  · rw [View.canon_append_of_forall_not_mem (Val := Elt Ideal) (S := S30x10x61x61) (e := .f32) _ y _
      (slabs_forall _ (fun p => y ∉ p.1.set) (fun j hj inb h1 h2 h3 h4 => not_mem_patch j inb y hg)),
      rowBlock_of_outside _ _ _ hg]
    exact fill_apply y

theorem out0_1_eq (i : grid0.Coords) (x0 : Vec Ideal S1x88x88x11 .f32) :
    out0_1 (F := Ideal) i x0 = Cert.Spec.rowBlock (i 1).val x0 :=
  funext fun y => out0_1_apply i x0 y

end Cert.KernelIdeal.HandValue

end
-- ==== Proof.KernelIdealValue.lean ====
/-
  The idealized kernel's value: from what each grid point writes back to the whole result array, and through the
  reshape after the region.

  Grid point `t = 30 n + i` writes back block `t` of the [3600, 10, 61, 61] result: its thirty rows are the patches
  of window row `i` of batch element `n`, and the input block it reads is batch element `n` of the padded image.
  The 120 blocks tile the result, so the result is `patch4` of the padded image; the reshape flattens 61 × 61.
-/
import proofs.«147410_j25297357373688_1_alg».proof.Proof.KernelIdealRun
import proofs.«147410_j25297357373688_1_alg».proof.Proof.KernelIdealOut
import proofs.«147410_j25297357373688_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The grid has 120 points. -/
theorem lt_N (t : Fin cfg0.N) : t.val < 120 := lt_of_lt_of_eq t.isLt N_0

/-- The printed index maps, decided once over the grid: the result's block index is the point, the image's is the
    point's batch coordinate `t / 30`, and the window row is `t % 30`. -/
theorem idx_facts : ∀ t : Fin cfg0.N,
    win0_1.index t (0 : Fin 4) = t.val ∧ win0_1.index t (1 : Fin 4) = 0 ∧ win0_1.index t (2 : Fin 4) = 0 ∧ win0_1.index t (3 : Fin 4) = 0
    ∧ win0_0.index t (0 : Fin 4) = t.val / 30 ∧ win0_0.index t (1 : Fin 4) = 0 ∧ win0_0.index t (2 : Fin 4) = 0 ∧ win0_0.index t (3 : Fin 4) = 0
    ∧ ((grid0.coords t) 1).val = t.val % 30 :=
  (by decide +kernel : ∀ t : Fin grid0.N, _)

/-- The block function at window row `t % 30` of a batch element that is batch `t / 30` of the padded image is
    `patch4` of the image at row `30 t + j`. -/
theorem rowBlock_eq_patch4 (X : FVec Ideal Cert.Spec.SX .f32) (x : FVec Ideal Cert.Spec.SXb .f32) (t : Nat) (ht : t < 120)
    (i : Nat) (hi : i = t % 30)
    (hx : ∀ (a : Fin 88) (b : Fin 88) (ch : Fin 11),
      x (ix4 (n0 := 1) (n1 := 88) (n2 := 88) (n3 := 11) ⟨0, by omega⟩ a b ch)
        = X (ix4 (n0 := 4) (n1 := 88) (n2 := 88) (n3 := 11) ⟨t / 30, by omega⟩ a b ch))
    (y : Cert.Spec.SBlk.Idx) (z : Cert.Spec.SOut4.Idx)
    (h0 : (z 0).val = 30 * t + (y 0).val) (h1 : (z 1).val = (y 1).val) (h2 : (z 2).val = (y 2).val) (h3 : (z 3).val = (y 3).val) :
    Cert.Spec.rowBlock i x y = Cert.Spec.patch4 X z := by
  subst hi
  have hy0 : (y 0).val < 30 := (y 0).isLt
  have hy1 : (y 1).val < 10 := (y 1).isLt
  unfold Cert.Spec.rowBlock Cert.Spec.patch4
  by_cases h : (y 2).val < 59 ∧ (y 3).val < 59
  · rw [dif_pos (show (y 2).val < 59 ∧ (y 3).val < 59 ∧ t % 30 < 30 from ⟨h.1, h.2, by omega⟩),
      dif_pos (show (z 2).val < 59 ∧ (z 3).val < 59 from by omega), hx]
    congr 1
    funext a
    apply Fin.ext
    match a with
    | ⟨0, _⟩ => show t / 30 = (z 0).val / 900; omega
    | ⟨1, _⟩ => show t % 30 + (y 2).val = (z 0).val / 30 % 30 + (z 2).val; omega
    | ⟨2, _⟩ => show (y 0).val + (y 3).val = (z 0).val % 30 + (z 3).val; omega
    | ⟨3, _⟩ => show (y 1).val = (z 1).val; omega
  · rw [dif_neg (show ¬((y 2).val < 59 ∧ (y 3).val < 59 ∧ t % 30 < 30) from fun hh => h ⟨hh.1, hh.2.1⟩),
      dif_neg (show ¬((z 2).val < 59 ∧ (z 3).val < 59) from by omega)]

/-- The input block at point `t` is batch element `t / 30` of the padded image. -/
theorem iblk_apply (c : Dev nD) (t : Fin cfg0.N) (a : Fin 88) (b : Fin 88) (ch : Fin 11) :
    (iblk m c 0 t : Vec Ideal S1x88x88x11 .f32) (ix4 (n0 := 1) (n1 := 88) (n2 := 88) (n3 := 11) ⟨0, by omega⟩ a b ch)
      = (V m c main_v8 : Vec Ideal S4x88x88x11 .f32)
          (ix4 (n0 := 4) (n1 := 88) (n2 := 88) (n3 := 11) ⟨t.val / 30, by have := lt_N t; omega⟩ a b ch) := by
  obtain ⟨_, _, _, _, e0, e1, e2, e3, _⟩ := idx_facts t
  unfold iblk
  rw [View.read_apply]
  refine congrArg (V m c main_v8 : S4x88x88x11.Idx → Ideal .f32) (funext fun k => Fin.ext ?_)
  match k with
  | ⟨0, _⟩ => show win0_0.index t (0 : Fin 4) * 1 + 1 * 0 = t.val / 30; omega
  | ⟨1, _⟩ => show win0_0.index t (1 : Fin 4) * 88 + 1 * a.val = a.val; omega
  | ⟨2, _⟩ => show win0_0.index t (2 : Fin 4) * 88 + 1 * b.val = b.val; omega
  | ⟨3, _⟩ => show win0_0.index t (3 : Fin 4) * 11 + 1 * ch.val = ch.val; omega

/-- What point `t` writes back is block `t` of `patch4` of the padded image. -/
theorem flushed_eq (c : Dev nD) (t : Fin cfg0.N) :
    (dats m 0 c).flushed 1 t = ((cfg0.win 1).blk t).view.read (Elt Ideal) (Cert.Spec.patch4 (V m c main_v8)) := by
  show (cfg0.win 1).cut (grid0.coords t) ((dats m 0 c).after 1 t) = _
  rw [after0_1, out0_1_eq]
  obtain ⟨e0, e1, e2, e3, _, _, _, _, ei⟩ := idx_facts t
  funext y
  rw [View.read_apply]
  refine rowBlock_eq_patch4 (V m c main_v8) (iblk m c 0 t) t.val (lt_N t) ((grid0.coords t) 1).val ei (iblk_apply m c t) _ _ ?_ ?_ ?_ ?_
  · show win0_1.index t (0 : Fin 4) * 30 + 1 * (y 0).val = 30 * t.val + (y 0).val; omega
  · show win0_1.index t (1 : Fin 4) * 10 + 1 * (y 1).val = (y 1).val; omega
  · show win0_1.index t (2 : Fin 4) * 61 + 1 * (y 2).val = (y 2).val; omega
  · show win0_1.index t (3 : Fin 4) * 61 + 1 * (y 3).val = (y 3).val; omega

/-- An index of the result is in point `t`'s block iff each coordinate is in the block's range on its axis. -/
theorem mem_blk (t : Fin cfg0.N) (i : S3600x10x61x61.Idx) :
    i ∈ ((cfg0.win 1).blk t).view.set ↔ ∀ a : Fin 4, win0_1.index t a * S30x10x61x61.size a ≤ (i a).val ∧ (i a).val < win0_1.index t a * S30x10x61x61.size a + S30x10x61x61.size a := by
  show i ∈ ((View.whole main_v9).slice (win0_1.rect t)).set ↔ _
  rw [View.set_slice_whole, Rect.mem_set_unit]
  exact Iff.rfl

/-- The 120 blocks tile the result: row `r` lies in the block of point `r / 30`. -/
theorem cover (i : S3600x10x61x61.Idx) :
    ∃ t : Fin cfg0.N, (cfg0.win 1).flush t = true ∧ i ∈ ((cfg0.win 1).blk t).view.set := by
  have hi0 : (i 0).val < 3600 := (i 0).isLt
  have hi1 : (i 1).val < 10 := (i 1).isLt
  have hi2 : (i 2).val < 61 := (i 2).isLt
  have hi3 : (i 3).val < 61 := (i 3).isLt
  refine ⟨⟨(i 0).val / 30, lt_of_lt_of_eq (by omega) N_0.symm⟩, flush0_1 _, ?_⟩
  obtain ⟨e0, e1, e2, e3, _⟩ := idx_facts ⟨(i 0).val / 30, lt_of_lt_of_eq (by omega) N_0.symm⟩
  rw [mem_blk]
  intro a
  match a with
  | ⟨0, _⟩ => show win0_1.index _ (0 : Fin 4) * 30 ≤ (i 0).val ∧ (i 0).val < win0_1.index _ (0 : Fin 4) * 30 + 30; rw [e0]; show (i 0).val / 30 * 30 ≤ (i 0).val ∧ (i 0).val < (i 0).val / 30 * 30 + 30; omega
  | ⟨1, _⟩ => show win0_1.index _ (1 : Fin 4) * 10 ≤ (i 1).val ∧ (i 1).val < win0_1.index _ (1 : Fin 4) * 10 + 10; rw [e1]; omega
  | ⟨2, _⟩ => show win0_1.index _ (2 : Fin 4) * 61 ≤ (i 2).val ∧ (i 2).val < win0_1.index _ (2 : Fin 4) * 61 + 61; rw [e2]; omega
  | ⟨3, _⟩ => show win0_1.index _ (3 : Fin 4) * 61 ≤ (i 3).val ∧ (i 3).val < win0_1.index _ (3 : Fin 4) * 61 + 61; rw [e3]; omega

/-- The region's result array after the run is `patch4` of the padded image as the region found it. -/
theorem final1 (c : Dev nD) :
    (dats m 0 c).arrAt 1 cfg0.N = Cert.Spec.patch4 (V m c main_v8) :=
  (dats m 0 c).arrAt_eq_of_cover 1 (Cert.Spec.patch4 (V m c main_v8)) (fun t _ => flushed_eq m c t) cover

/-- The reshape after the region leaves the result buffer at `patch` of the padded image. -/
theorem result_eq (c : Dev nD) :
    Pipeline.afterTail₀ cfgs (dats m) 0 (V0 m) [hostOps1] c main_v10 = Cert.Spec.patch (V m c main_v8) := by
  unfold Pipeline.afterTail₀
  show StableHlo.after hostOps1 _ (Proc.devRef .tc main_v10) = _
  after_results
  have hA : Pipeline.withArrays (cfgs 0).spec c (V0 m c) (fun w => (dats m 0 c).arrAt w (cfgs 0).N) (Proc.devRef .tc main_v9)
      = Cert.Spec.patch4 (V m c main_v8) :=
    (Pipeline.withArrays_arr spec0 launch0.win.arr_inj c _ _ 1).trans (final1 m c)
  rw [hA]
  refine funext fun (z : Cert.Spec.SOut.Idx) => ?_
  show shapeCast Cert.Spec.SOut (Cert.Spec.patch4 (V m c main_v8)) shapeCasts_S3600x10x61x61_S3600x10x3721 z = _
  unfold Cert.Spec.patch
  have hz2 : (z 2).val < 3721 := (z 2).isLt
  refine shapeCast_apply _ _ z _ ?_
  show ((⟨4, ![3600, 10, 61, 61]⟩ : Shape).rowMajor _).val = ((⟨3, ![3600, 10, 3721]⟩ : Shape).rowMajor z).val
  rw [Shape.rowMajor_val_three, Shape.rowMajor_val_four]
  show (((z 0).val * 10 + (z 1).val) * 61 + (z 2).val / 61) * 61 + (z 2).val % 61 = ((z 0).val * 10 + (z 1).val) * 3721 + (z 2).val
  omega

/-- The idealized kernel's run with its result named. -/
theorem run_value : θ_run defs (onTc (τ := τ) (main (F := Ideal))) ⟨m, fun _ => 0, ρ⟩ (fun r => ∀ c : Dev nD,
      r.2.mem ((c.tc : Thread nD τ).loc main_v10) = Cert.Spec.patch (V m c main_v8)
      ∧ r.2.mem ((c.tc : Thread nD τ).loc main_arg0) = m ((c.tc : Thread nD τ).loc main_arg0)) :=
  (θ_run defs _ _).mono (fun r h c =>
      ⟨((h c).2 main_v10 (Pipeline.mem_restRefs_of main_v10 (by decide) (by decide))).trans (result_eq m c),
       ((h c).2 main_arg0 (Pipeline.mem_restRefs_of main_arg0 (by decide) (by decide))).trans (W_main_arg0 m (dats m) c)⟩)
    (run_main m ρ)

end Cert.KernelIdeal.HandValue

end
-- ==== Proof.LibNary3.lean ====
/-
  A general lemma: the result of a host operation over a LITERAL family of three references.

  An n-ary host operation (a `stablehlo.concatenate` of n operands) hands its function the operands' contents as a
  family indexed by `Fin n`, each read at the reference `xs k`. For a literal family `![x, a, b]` the same family is
  the three contents consed together, each read at its OWN reference. In that form the operands' contents are
  visible as literals, so a proof that reads a line of host operations back, one result at a time, can go on
  through the operands. The library states this for four references; this is the same fact for three.
-/
import Idealize.ShloMosaic.Lib.StableHlo.Run

noncomputable section

namespace Idealize.ShloMosaic.StableHlo

variable {nD : Nat} {τ : Topo} {sig : RefSig} {Val : EltTy → Type}
variable {x a b y : Ref sig .tc}

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed so that `simp` can use it. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KernelIdealHost.lean ====
/-
  The padded image the region finds, as one term over the argument.

  Before the region, @main cuts the argument (4 × 10 × 30 × 30, channels second) into its first channel and its
  other nine, pads each to 88 × 88 (29 on every side of both window axes; the first channel's padding value is one,
  the other nine's is zero), makes an eleventh channel that is zero inside and one on the padding, joins the three
  along the channel axis and moves the channel axis last. This module names that composed term `padded` and proves
  that the array the region's input window stages holds it.
-/
import proofs.«147410_j25297357373688_1_alg».proof.Proof.KernelIdealMain
import proofs.«147410_j25297357373688_1_alg».proof.Proof.LibNary3

set_option maxRecDepth 16384

noncomputable section

namespace Cert.KernelIdeal.HandValue

open Cert.KernelIdeal Cert.KernelIdeal.Gen Cert.KernelIdeal.Hand
open Idealize.ShloMosaic Idealize.ShloMosaic.TcCoe
open Idealize.SL.Sem

variable {F : FTy → Type} [FloatOps F]

/-- The padded image, channels last, from the argument: channel 0 is the argument's channel 0 padded with one,
    channels 1 … 9 are its channels 1 … 9 padded with zero, and channel 10 is zero inside the 30 × 30 image and one
    on the padding. -/
def padded (x0 : FVec F S4x10x30x30 .f32) : FVec F S4x88x88x11 .f32 :=
  transpose S4x88x88x11 [0, 2, 3, 1]
    (concatenate S4x11x88x88 1
      [⟨S4x1x88x88, pad S4x1x88x88 ![0, 0, 29, 29] ![0, 0, 29, 29] ![0, 0, 0, 0]
          (extractStridedSlice S4x1x30x30 ![0, 0, 0, 0] x0 slices_S4x10x30x30_S4x1x30x30_0_0_0_0)
          (id (constant (F := F) S_ .f32 0x3F800000#32)) pads_S4x1x30x30_S4x1x88x88_000_000_29290_29290 h_S_⟩,
       ⟨S4x9x88x88, pad S4x9x88x88 ![0, 0, 29, 29] ![0, 0, 29, 29] ![0, 0, 0, 0]
          (extractStridedSlice S4x9x30x30 ![0, 1, 0, 0] x0 slices_S4x10x30x30_S4x9x30x30_0_1_0_0)
          (id (constant (F := F) S_ .f32 0x00000000#32)) pads_S4x9x30x30_S4x9x88x88_000_000_29290_29290 h_S_⟩,
       ⟨S4x1x88x88, pad S4x1x88x88 ![0, 0, 29, 29] ![0, 0, 29, 29] ![0, 0, 0, 0]
          (broadcastInDim S4x1x30x30 ![] bcast_S_S4x1x30x30 (constant (F := F) S_ .f32 0x00000000#32))
          (id (constant (F := F) S_ .f32 0x3F800000#32)) pads_S4x1x30x30_S4x1x88x88_000_000_29290_29290 h_S_⟩]
      concatenates_S4x1x88x88_S4x9x88x88_S4x1x88x88_S4x11x88x88_d1)
    transposes_S4x11x88x88_S4x88x88x11_0_2_3_1

set_option maxHeartbeats 1000000 in
/-- The array the input window stages holds the padded image of the argument as launched: the host operations before
    the region, read back one result at a time. -/
theorem V_main_v8 (m : (ℓ : Loc nD τ sig) → Buf (Elt F) ℓ) (c : Dev nD) :
    (V m c main_v8 : S4x88x88x11.Idx → F .f32) = padded (m ((c : Thread nD τ).loc main_arg0)) := by
  dsimp only [V, V0]
  simp only [hostOps0, hostOps0_1, hostOps0_2, hostOps0_3, hostOps0_4, hostOps0_5, hostOps0_6, List.flatten_cons,
    List.flatten_nil, List.append_nil, List.cons_append, List.nil_append]
  simp only [StableHlo.after_cons, StableHlo.after_nil]
  repeat (first
    | rw [StableHlo.nullary_result] | rw [StableHlo.unary_result] | rw [StableHlo.binary_result]
    | rw [StableHlo.nary3_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  rfl

end Cert.KernelIdeal.HandValue

end
-- ==== Proof.KernelIdealHostRef.lean ====
/-
  The padded image the kernel's region finds is the padded image the reference builds.

  Both programs begin with the same host operations on the argument: the first channel padded with one, the other
  nine padded with zero, an eleventh channel that is zero inside and one on the padding, the three joined along the
  channel axis, the channel axis moved last. The reference's reading names each operation's value; unfolded, its
  chain is the same term as `padded`, over its own copies of the same shapes and of the same facts about them.
-/
import proofs.«147410_j25297357373688_1_alg».proof.Proof.KernelIdealHost
import proofs.«147410_j25297357373688_1_alg».proof.Proof.RefRead

set_option maxRecDepth 16384

noncomputable section

namespace Cert.KernelIdeal.HandValue

open Cert.KernelIdeal Cert.KernelIdeal.Gen
open Idealize.ShloMosaic Idealize.ShloMosaic.TcCoe
open Idealize.SL.Sem

variable {F : FTy → Type} [FloatOps F]

open Cert.ReferenceIdeal.ReadP in
/-- The kernel's padded image is the reference's, as functions of the argument: the two chains of operations are the
    same term once the reference's named values are unfolded. -/
theorem padded_eq_ref (x0 : FVec F S4x10x30x30 .f32) :
    padded (F := F) x0 = Cert.ReferenceIdeal.ReadP.val_main_v8 (F := F) x0 := by
  unfold padded val_main_v8 val_main_v7 val_main_v1 val_main_v3 val_main_v6 val_main_v0 val_main_v2 val_main_v5
    val_main_call0_v0 val_main_call1_v0 val_main_call2_v0 val_main_cst val_main_cst_0 val_main_cst_1 val_main_cst_2
  rfl

end Cert.KernelIdeal.HandValue

end
-- ==== Proof.RefIndex.lean ====
/-
  Index lemmas for the reference side, each over variables with the program's literal shapes. The gather of the
  padded image [4, 88, 88, 11] at a start-index array [30, 30, 59, 59, 2] reads, at result index (n, i, j, hl, wl, c),
  the image at (n, r, q, c), where r and q are the two components of the start index at (i, j, hl, wl), read signed
  and clamped into 0 … 87. A sum of two small words, wrapped around by 88 when negative, is the sum, and clamping it
  changes nothing while it is at most 87. The concatenation of two index columns reads the first at component 0 and
  the second at component 1; the reshape [4, 30, 30, 11, 61, 61] → [3600, 11, 3721] sends (r, c, k) to
  (r / 900, r / 30 % 30, r % 30, c, k / 61, k % 61); the pad by two trailing rows and columns reads the operand
  where both patch coordinates are below 59 and the padding value elsewhere.
-/
import proofs.«147410_j25297357373688_1_alg».proof.Proof.Gen.ReferenceIdeal
import proofs.«147410_j25297357373688_1_alg».proof.Proof.Spec
import Idealize.ShloMosaic.Lib.ValueIdx
import Idealize.ShloMosaic.Lib.ValueIdxRank6
import Idealize.ShloMosaic.Lib.KernelVsHost
import Idealize.ShloMosaic.Lib.Pipeline.Value
import Idealize.ShloMosaic.Lib.StableHlo.Predicate

noncomputable section
namespace Cert.ReferenceIdeal.RefIndex
open Cert.ReferenceIdeal Cert.ReferenceIdeal.Gen Idealize.ShloMosaic Idealize.ShloMosaic.ValueIdx

/-- The gather's dimension record. -/
abbrev gd := gather_S4x88x88x11_S30x30x59x59x2_S4x30x30x59x59x11_05_12_n_n_12_4_41111

/-- Where result index `j` reads component `k` of its start index: `j`'s four batch coordinates, then `k`. -/
abbrev gIdx (j : S4x30x30x59x59x11.Idx) (k : Fin 2) : S30x30x59x59x2.Idx :=
  ix5 (n0 := 30) (n1 := 30) (n2 := 59) (n3 := 59) (n4 := 2) (j 1) (j 2) (j 3) (j 4) k

/-! ## The gather read at an index

Offset axes 0 and 5 of the result read operand axes 0 and 3; operand axes 1 and 2 are collapsed and take their
start from the two components of the start index, read signed and clamped into 0 … 87; the four remaining result
axes are the batch axes and name the start index. -/

theorem gather_apply {α : Type} {w : Nat} (X : S4x88x88x11.Idx → α) (idx : IVec S30x30x59x59x2 w) (j : S4x30x30x59x59x11.Idx) :
    Host.gather gd X idx j = X (ix4 (n0 := 4) (n1 := 88) (n2 := 88) (n3 := 11) (j 0)
      ⟨min (idx (gIdx j 0)).toInt.toNat 87, by omega⟩ ⟨min (idx (gIdx j 1)).toInt.toNat 87, by omega⟩ (j 5)) := by
  unfold Host.gather
  congr 1
  funext a
  refine Fin.ext ?_
  match a with
  | ⟨0, _⟩ =>
    show gd.start j idx 0 + gd.batchCoord j 0 + gd.offCoord j 0 = (j 0).val
    have h1 : gd.start j idx 0 = 0 := by unfold GatherDims.start; exact dif_neg (by decide)
    have h2 : gd.batchCoord j 0 = 0 := GatherDims.batchCoord_eq_zero _ _ _ (by decide)
    have h3 : gd.offCoord j 0 = (j 0).val := by unfold GatherDims.offCoord; rw [dif_pos (by decide)]; rfl
    rw [h1, h2, h3]; omega
  | ⟨1, _⟩ =>
    show gd.start j idx 1 + gd.batchCoord j 1 + gd.offCoord j 1 = min (idx (gIdx j 0)).toInt.toNat 87
    have h2 : gd.batchCoord j 1 = 0 := GatherDims.batchCoord_eq_zero _ _ _ (by decide)
    have h3 : gd.offCoord j 1 = 0 := GatherDims.offCoord_eq_zero _ _ _ (by decide)
    have h1 : gd.start j idx 1 = min (idx (gIdx j 0)).toInt.toNat 87 := by
      unfold GatherDims.start
      rw [dif_pos (by decide)]
      have hsi : gd.siIdx j ⟨List.idxOf (1 : Fin 4) gd.startIndexMap, List.idxOf_lt_length_iff.2 (by decide)⟩ = gIdx j 0 := by
        funext b; refine Fin.ext ?_
        match b with
        | ⟨0, _⟩ => rfl
        | ⟨1, _⟩ => rfl
        | ⟨2, _⟩ => rfl
        | ⟨3, _⟩ => rfl
        | ⟨4, _⟩ => rfl
      rw [hsi]
      rfl
    rw [h1, h2, h3]; omega
  | ⟨2, _⟩ =>
    show gd.start j idx 2 + gd.batchCoord j 2 + gd.offCoord j 2 = min (idx (gIdx j 1)).toInt.toNat 87
    have h2 : gd.batchCoord j 2 = 0 := GatherDims.batchCoord_eq_zero _ _ _ (by decide)
    have h3 : gd.offCoord j 2 = 0 := GatherDims.offCoord_eq_zero _ _ _ (by decide)
    have h1 : gd.start j idx 2 = min (idx (gIdx j 1)).toInt.toNat 87 := by
      unfold GatherDims.start
      rw [dif_pos (by decide)]
      have hsi : gd.siIdx j ⟨List.idxOf (2 : Fin 4) gd.startIndexMap, List.idxOf_lt_length_iff.2 (by decide)⟩ = gIdx j 1 := by
        funext b; refine Fin.ext ?_
        match b with
        | ⟨0, _⟩ => rfl
        | ⟨1, _⟩ => rfl
        | ⟨2, _⟩ => rfl
        | ⟨3, _⟩ => rfl
        | ⟨4, _⟩ => rfl
      rw [hsi]
      rfl
    rw [h1, h2, h3]; omega
  | ⟨3, _⟩ =>
    show gd.start j idx 3 + gd.batchCoord j 3 + gd.offCoord j 3 = (j 5).val
    have h1 : gd.start j idx 3 = 0 := by unfold GatherDims.start; exact dif_neg (by decide)
    have h2 : gd.batchCoord j 3 = 0 := GatherDims.batchCoord_eq_zero _ _ _ (by decide)
    have h3 : gd.offCoord j 3 = (j 5).val := by unfold GatherDims.offCoord; rw [dif_pos (by decide)]; rfl
    rw [h1, h2, h3]; omega

/-! ## Words -/

/-- The sum of two small words, wrapped around 88 when negative: it is not negative, so it is the sum. -/
theorem word_wrap (a b : Nat) (h : a + b < 2 ^ 31) :
    Scalar.select (IntOp.cmpi .slt (IntOp.addi (BitVec.ofNat 32 a) (BitVec.ofNat 32 b)) 0#32)
      (IntOp.addi (IntOp.addi (BitVec.ofNat 32 a) (BitVec.ofNat 32 b)) 88#32)
      (IntOp.addi (BitVec.ofNat 32 a) (BitVec.ofNat 32 b)) = BitVec.ofNat 32 (a + b) := by
  have e : IntOp.addi (BitVec.ofNat 32 a) (BitVec.ofNat 32 b) = BitVec.ofNat 32 (a + b) := by
    unfold IntOp.addi; exact (BitVec.ofNat_add _ _).symm
  rw [e]
  have hn : (BitVec.ofNat 32 (a + b)).toNat = a + b := by
    rw [BitVec.toNat_ofNat]; exact Nat.mod_eq_of_lt (by omega)
  have hc : IntOp.cmpi .slt (BitVec.ofNat 32 (a + b)) 0#32 = 0#1 := by
    apply eq_zero_of_ne_one
    intro h1
    have := (StableHlo.Predicate.slt_iff_toNat (a := BitVec.ofNat 32 (a + b)) (b := 0#32) (by omega) (by decide)).1 h1
    simp at this
  rw [hc, select_zero]

/-- A small word read signed and clamped into 0 … 87 is itself when it is at most 87. -/
theorem word_clamp (n : Nat) (h : n ≤ 87) : min (BitVec.ofNat 32 n).toInt.toNat 87 = n := by
  rw [StableHlo.Predicate.toInt_ofNat_small n (by omega), Int.toNat_natCast]
  omega

/-! ## The two-piece concatenation of the index columns -/

theorem concat_apply_zero {α : Type} (x₁ x₂ : S30x30x59x59x1.Idx → α) (a b : Fin 30) (c d : Fin 59) :
    concatenate S30x30x59x59x2 4 [⟨S30x30x59x59x1, x₁⟩, ⟨S30x30x59x59x1, x₂⟩]
      concatenates_S30x30x59x59x1_S30x30x59x59x1_S30x30x59x59x2_d4
      (ix5 (n0 := 30) (n1 := 30) (n2 := 59) (n3 := 59) (n4 := 2) a b c d 0)
      = x₁ (ix5 (n0 := 30) (n1 := 30) (n2 := 59) (n3 := 59) (n4 := 1) a b c d 0) := by
  refine concatenate_pair_apply_left (t := S30x30x59x59x2) (s₁ := S30x30x59x59x1) (s₂ := S30x30x59x59x1) (4 : Fin 5) x₁ x₂
    concatenates_S30x30x59x59x1_S30x30x59x59x1_S30x30x59x59x2_d4
    (ix5 (n0 := 30) (n1 := 30) (n2 := 59) (n3 := 59) (n4 := 2) a b c d 0) rfl
    (ix5 (n0 := 30) (n1 := 30) (n2 := 59) (n3 := 59) (n4 := 1) a b c d 0) (fun e => ?_)
  match e with
  | ⟨0, _⟩ => rfl
  | ⟨1, _⟩ => rfl
  | ⟨2, _⟩ => rfl
  | ⟨3, _⟩ => rfl
  | ⟨4, _⟩ => rfl

theorem concat_apply_one {α : Type} (x₁ x₂ : S30x30x59x59x1.Idx → α) (a b : Fin 30) (c d : Fin 59) :
    concatenate S30x30x59x59x2 4 [⟨S30x30x59x59x1, x₁⟩, ⟨S30x30x59x59x1, x₂⟩]
      concatenates_S30x30x59x59x1_S30x30x59x59x1_S30x30x59x59x2_d4
      (ix5 (n0 := 30) (n1 := 30) (n2 := 59) (n3 := 59) (n4 := 2) a b c d 1)
      = x₂ (ix5 (n0 := 30) (n1 := 30) (n2 := 59) (n3 := 59) (n4 := 1) a b c d 0) := by
  refine concatenate_pair_apply_right (t := S30x30x59x59x2) (s₁ := S30x30x59x59x1) (s₂ := S30x30x59x59x1) (4 : Fin 5) x₁ x₂
    concatenates_S30x30x59x59x1_S30x30x59x59x1_S30x30x59x59x2_d4
    (ix5 (n0 := 30) (n1 := 30) (n2 := 59) (n3 := 59) (n4 := 2) a b c d 1) rfl rfl
    (ix5 (n0 := 30) (n1 := 30) (n2 := 59) (n3 := 59) (n4 := 1) a b c d 0) (fun e he => ?_) rfl
  match e, he with
  | ⟨0, _⟩, _ => rfl
  | ⟨1, _⟩, _ => rfl
  | ⟨2, _⟩, _ => rfl
  | ⟨3, _⟩, _ => rfl
  | ⟨4, _⟩, he => exact absurd rfl he

/-! ## The reshape [4,30,30,11,61,61] → [3600,11,3721] -/

theorem reshape_apply {α : Type} (x : S4x30x30x11x61x61.Idx → α) (z : S3600x11x3721.Idx) :
    shapeCast S3600x11x3721 x shapeCasts_S4x30x30x11x61x61_S3600x11x3721 z
      = x (ix6 (n0 := 4) (n1 := 30) (n2 := 30) (n3 := 11) (n4 := 61) (n5 := 61)
          ⟨(z 0).val / 900, by have h0 : (z 0).val < 3600 := (z 0).isLt; omega⟩
          ⟨(z 0).val / 30 % 30, by omega⟩
          ⟨(z 0).val % 30, by omega⟩
          ⟨(z 1).val, (z 1).isLt⟩
          ⟨(z 2).val / 61, by have h2 : (z 2).val < 3721 := (z 2).isLt; omega⟩
          ⟨(z 2).val % 61, by omega⟩) := by
  refine shapeCast_apply x _ z _ ?_
  have h0 : (z 0).val < 3600 := (z 0).isLt
  have h1 : (z 1).val < 11 := (z 1).isLt
  have h2 : (z 2).val < 3721 := (z 2).isLt
  rw [Shape.rowMajor_val_six, Shape.rowMajor_val_three]
  show ((((((z 0).val / 900) * 30 + (z 0).val / 30 % 30) * 30 + (z 0).val % 30) * 11 + (z 1).val) * 61 + (z 2).val / 61) * 61 + (z 2).val % 61
    = ((z 0).val * 11 + (z 1).val) * 3721 + (z 2).val
  omega

/-! ## The pad by two trailing rows and columns -/

theorem pad_apply {α : Type} (x : S4x30x30x11x59x59.Idx → α) (v : S_.Idx → α) (y : S4x30x30x11x61x61.Idx) :
    pad S4x30x30x11x61x61 ![0, 0, 0, 0, 0, 0] ![0, 0, 0, 0, 2, 2] ![0, 0, 0, 0, 0, 0] x v
      pads_S4x30x30x11x59x59_S4x30x30x11x61x61_000_000_000_000_020_020 h_S_ y
      = if h : (y 4).val < 59 ∧ (y 5).val < 59 then
          x (ix6 (n0 := 4) (n1 := 30) (n2 := 30) (n3 := 11) (n4 := 59) (n5 := 59) (y 0) (y 1) (y 2) (y 3)
            ⟨(y 4).val, h.1⟩ ⟨(y 5).val, h.2⟩)
        else v ix0 := by
  by_cases h : (y 4).val < 59 ∧ (y 5).val < 59
  · rw [dif_pos h]
    refine pad_apply_of_inside _ _ _ x v _ _ y _ (fun a => ?_)
    match a with
    | ⟨0, _⟩ => show (y 0).val = 0 + (y 0).val * (0 + 1); omega
    | ⟨1, _⟩ => show (y 1).val = 0 + (y 1).val * (0 + 1); omega
    | ⟨2, _⟩ => show (y 2).val = 0 + (y 2).val * (0 + 1); omega
    | ⟨3, _⟩ => show (y 3).val = 0 + (y 3).val * (0 + 1); omega
    | ⟨4, _⟩ => show (y 4).val = 0 + (y 4).val * (0 + 1); omega
    | ⟨5, _⟩ => show (y 5).val = 0 + (y 5).val * (0 + 1); omega
  · rw [dif_neg h]
    have hv : v (Shape.Idx.first h_S_) = v ix0 := congrArg v (eq_ix0 _)
    by_cases h4 : (y 4).val < 59
    · have h5 : ¬ (y 5).val < 59 := fun h5 => h ⟨h4, h5⟩
      rw [← hv]
      refine pad_apply_of_not_inside _ _ _ x v _ _ y (5 : Fin 6) ?_
      show ¬(0 ≤ (y 5).val ∧ ((y 5).val - 0) % (0 + 1) = 0 ∧ ((y 5).val - 0) / (0 + 1) < 59)
      omega
    · rw [← hv]
      refine pad_apply_of_not_inside _ _ _ x v _ _ y (4 : Fin 6) ?_
      show ¬(0 ≤ (y 4).val ∧ ((y 4).val - 0) % (0 + 1) = 0 ∧ ((y 4).val - 0) / (0 + 1) < 59)
      omega

end Cert.ReferenceIdeal.RefIndex
end
-- ==== Proof.RefValue.lean ====
/-
  The reference's result is the specification at the padded image. Component 0 of the start index at
  (i, j, hl, wl) is the word i + hl and component 1 the word j + wl (an iota plus an iota, never negative, at most 87),
  so the gathered array at (n, i, j, hl, wl, c) is the image at (n, i + hl, j + wl, c). Transposed, padded with zero to
  61 × 61, reshaped and cut to ten channels, the result at (r, c, k) is the image at
  (r / 900, r / 30 % 30 + k / 61, r % 30 + k % 61, c) when k / 61 < 59 and k % 61 < 59 and zero otherwise: the
  specification's patch. The padded image itself is never opened.
-/
import proofs.«147410_j25297357373688_1_alg».proof.Proof.RefRead
import proofs.«147410_j25297357373688_1_alg».proof.Proof.RefIndex
import proofs.«147410_j25297357373688_1_alg».proof.Proof.Spec
import Idealize.ShloMosaic.PureOps.Ideal
import Idealize.ShloMosaic.Lib.ValueIdx
import Idealize.ShloMosaic.Lib.ValueIdxRank6

noncomputable section

namespace Cert.ReferenceIdeal.RefValue

open Cert.ReferenceIdeal Cert.ReferenceIdeal.Gen Cert.ReferenceIdeal.ReadP Cert.ReferenceIdeal.RefIndex
open Idealize.ShloMosaic Idealize.ShloMosaic.ValueIdx

variable {F : FTy → Type} [FloatOps F]

/-! ## The start indices: component 0 is window row plus patch row, component 1 window column plus patch column -/

theorem v39_zero (a b : Fin 30) (c d : Fin 59) :
    val_main_v39 (F := F) (ix5 (n0 := 30) (n1 := 30) (n2 := 59) (n3 := 59) (n4 := 2) a b c d 0)
      = BitVec.ofNat 32 (a.val + c.val) := by
  have ha : a.val < 30 := a.isLt
  have hc : c.val < 59 := c.isLt
  unfold val_main_v39
  refine (concat_apply_zero _ _ a b c d).trans ?_
  rw [val_main_v37_apply, val_main_v35_apply, val_main_v29_apply, val_main_v26_apply, val_main_v28_apply,
    val_main_v23_apply, val_main_v25_apply, val_main_c_apply, val_main_v27_apply, val_main_c_3_apply,
    val_main_v15_apply, val_main_v13_apply, val_main_v14_apply, val_main_v10_apply, val_main_v12_apply,
    val_main_v9_apply, val_main_v11_apply]
  exact word_wrap a.val c.val (by omega)

theorem v39_one (a b : Fin 30) (c d : Fin 59) :
    val_main_v39 (F := F) (ix5 (n0 := 30) (n1 := 30) (n2 := 59) (n3 := 59) (n4 := 2) a b c d 1)
      = BitVec.ofNat 32 (b.val + d.val) := by
  have hb : b.val < 30 := b.isLt
  have hd : d.val < 59 := d.isLt
  unfold val_main_v39
  refine (concat_apply_one _ _ a b c d).trans ?_
  rw [val_main_v38_apply, val_main_v36_apply, val_main_v34_apply, val_main_v31_apply, val_main_v33_apply,
    val_main_v24_apply, val_main_v30_apply, val_main_c_4_apply, val_main_v32_apply, val_main_c_5_apply,
    val_main_v22_apply, val_main_v20_apply, val_main_v21_apply, val_main_v17_apply, val_main_v19_apply,
    val_main_v16_apply, val_main_v18_apply]
  exact word_wrap b.val d.val (by omega)

/-! ## The gathered windows -/

theorem v40_apply (x0 : (⟨S4x10x30x30, .f32⟩ : BufTy).Contents (Elt F)) (j : S4x30x30x59x59x11.Idx) :
    val_main_v40 (F := F) x0 j
      = val_main_v8 (F := F) x0 (ix4 (n0 := 4) (n1 := 88) (n2 := 88) (n3 := 11) (j 0)
          ⟨(j 1).val + (j 3).val, by
            have h1 : (j 1).val < 30 := (j 1).isLt; have h3 : (j 3).val < 59 := (j 3).isLt; omega⟩
          ⟨(j 2).val + (j 4).val, by
            have h2 : (j 2).val < 30 := (j 2).isLt; have h4 : (j 4).val < 59 := (j 4).isLt; omega⟩
          (j 5)) := by
  have h1 : (j 1).val < 30 := (j 1).isLt
  have h2 : (j 2).val < 30 := (j 2).isLt
  have h3 : (j 3).val < 59 := (j 3).isLt
  have h4 : (j 4).val < 59 := (j 4).isLt
  unfold val_main_v40
  generalize val_main_v8 (F := F) x0 = X
  refine (gather_apply X _ j).trans (congrArg X (funext fun a => ?_))
  match a with
  | ⟨0, _⟩ => rfl
  | ⟨1, _⟩ =>
    refine Fin.ext ?_
    show min (val_main_v39 (F := F) (ix5 (n0 := 30) (n1 := 30) (n2 := 59) (n3 := 59) (n4 := 2) (j 1) (j 2) (j 3) (j 4) 0)).toInt.toNat 87
      = (j 1).val + (j 3).val
    refine (congrArg (fun w : BitVec 32 => min w.toInt.toNat 87) (v39_zero (F := F) (j 1) (j 2) (j 3) (j 4))).trans ?_
    exact word_clamp _ (by omega)
  | ⟨2, _⟩ =>
    refine Fin.ext ?_
    show min (val_main_v39 (F := F) (ix5 (n0 := 30) (n1 := 30) (n2 := 59) (n3 := 59) (n4 := 2) (j 1) (j 2) (j 3) (j 4) 1)).toInt.toNat 87
      = (j 2).val + (j 4).val
    refine (congrArg (fun w : BitVec 32 => min w.toInt.toNat 87) (v39_one (F := F) (j 1) (j 2) (j 3) (j 4))).trans ?_
    exact word_clamp _ (by omega)
  | ⟨3, _⟩ => rfl

/-! ## The padding value -/

theorem padval_zero : val_main_call3_v0 (F := Ideal) ix0 = (0 : EReal) := by
  rw [val_main_call3_v0_apply, val_main_c_6_apply]
  show (((0#32 : BitVec 32).toInt : ℝ) : EReal) = 0
  simp

/-- Two dependent choices on the same condition agree when their branches do. -/
theorem dite_eq_dite {α : Type} {P Q : Prop} [Decidable P] [Decidable Q] (hPQ : P ↔ Q)
    {f : P → α} {g : Q → α} {a b : α} (hfg : ∀ p q, f p = g q) (hab : a = b) :
    dite P f (fun _ => a) = dite Q g (fun _ => b) := by
  by_cases hp : P
  · rw [dif_pos hp, dif_pos (hPQ.1 hp)]; exact hfg _ _
  · rw [dif_neg hp, dif_neg (fun q => hp (hPQ.2 q))]; exact hab

/-! ## The reference's result is the specification at the padded image -/

theorem ref_eq (x0 : (⟨S4x10x30x30, .f32⟩ : BufTy).Contents (Elt Ideal)) :
    val_main_v44 (F := Ideal) x0 = Cert.Spec.patch (val_main_v8 (F := Ideal) x0) := by
  funext z
  rw [val_main_v44_apply]
  unfold val_main_v43
  refine (reshape_apply _ _).trans ?_
  unfold val_main_v42
  refine (pad_apply _ _ _).trans ?_
  unfold Cert.Spec.patch Cert.Spec.patch4
  refine dite_eq_dite Iff.rfl (fun p q => ?_) padval_zero
  rw [val_main_v41_apply, v40_apply]
  refine congrArg (val_main_v8 (F := Ideal) x0) (funext fun a => ?_)
  match a with
  | ⟨0, _⟩ => rfl
  | ⟨1, _⟩ => rfl
  | ⟨2, _⟩ => rfl
  | ⟨3, _⟩ => rfl

end Cert.ReferenceIdeal.RefValue

end
-- ==== Proof.lean ====
/-
  The certificate: the word-level kernel, its idealization and the idealized reference each run to the end, fault
  nowhere and leave the argument unchanged; the idealization rewrote no operation; and at the Ideal instance the
  idealized kernel and the idealized reference, run from memories that agree on the argument, end with the same
  result.

  The mathematics. Both programs first build the same padded image X (the argument's first channel padded with
  ones, its other nine channels padded with zeros, an eleventh channel that is zero inside and one on the padding
  ring; 29 cells of padding on each side of the 30 × 30 grid; channels last). The result's row r of 3600 names a
  batch element n = r / 900 and a window corner (i, j) = (r / 30 % 30, r % 30); its entry for channel c < 10 and
  position k = 61 hl + wl is X n (i + hl) (j + wl) c when hl, wl < 59 and zero on the two extra rows and columns.
  The kernel computes this one window row per grid point: it zero-fills a block of thirty 61 × 61 patches and
  stores the thirty 59 × 59 windows of a band of 59 image rows into their corners. The reference gathers all
  windows at once through computed row and column indices (which are never negative, so the wrap-around select is
  the identity, and never past 87, so the clamp is), transposes, pads with zero and reshapes. No arithmetic on
  values happens on either side: the equality is a matter of indices only, and holds for every input.
-/
import proofs.«147410_j25297357373688_1_alg».proof.Defs
import proofs.«147410_j25297357373688_1_alg».proof.Proof.Gen.Kernel
import proofs.«147410_j25297357373688_1_alg».proof.Proof.Gen.KernelIdeal
import proofs.«147410_j25297357373688_1_alg».proof.Proof.Gen.ReferenceIdeal
import proofs.«147410_j25297357373688_1_alg».proof.Proof.Gen.Pre_finite_inputs
import proofs.«147410_j25297357373688_1_alg».proof.Proof.KernelRun
import proofs.«147410_j25297357373688_1_alg».proof.Proof.KernelIdealRun
import proofs.«147410_j25297357373688_1_alg».proof.Proof.KernelIdealValue
import proofs.«147410_j25297357373688_1_alg».proof.Proof.KernelIdealHostRef
import proofs.«147410_j25297357373688_1_alg».proof.Proof.RefRun
import proofs.«147410_j25297357373688_1_alg».proof.Proof.RefReadEq
import proofs.«147410_j25297357373688_1_alg».proof.Proof.RefValue
import Idealize.ShloMosaic.Adequacy
import Idealize.ShloMosaic.Init

noncomputable section

namespace Cert.Proof

open Idealize.ShloMosaic Idealize.SL.Sem

/-- The word-level kernel runs and leaves its argument unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The idealized reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Run from memories that agree on the argument, the idealized kernel ends with its result at `patch` of the padded
    image it built, and the idealized reference at `patch` of the padded image IT built; the two images are one
    function of the argument, computed by the same host operations. Finiteness of the input is not used: nothing is
    added or multiplied. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.patch (Cert.KernelIdeal.Hand.V m c Cert.KernelIdeal.main_v8), Cert.KernelIdeal.HandValue.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v44_eq, Cert.ReferenceIdeal.RefValue.ref_eq, hagree c]
  show Cert.Spec.patch _ = Cert.Spec.patch _
  rw [Cert.KernelIdeal.HandValue.V_main_v8, Cert.KernelIdeal.HandValue.padded_eq_ref]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
